-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S1000000x64 : Shape := ⟨2, ![1000000, 64]⟩
abbrev S100000x64 : Shape := ⟨2, ![100000, 64]⟩
abbrev S1000000x1 : Shape := ⟨2, ![1000000, 1]⟩
abbrev S100000x1 : Shape := ⟨2, ![100000, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg1 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  main_v37

def fn_part1 {F : FTy → Type} [FloatOps F] (main_arg0 : IVec S4096 32) (main_arg1 : IVec S4096 32) (main_arg6 : FVec F S1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg0 main_v24
  let main_c_9 : IVec S_ 32 := constantI S_ 32 1000000#32
  let main_v26 : IVec S4096 32 := broadcastInDim S4096 ![] bcast_S_S4096 main_c_9
  let main_v27 : IVec S4096 1 := cmpi .slt main_arg0 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg1 main_v31
  let main_c_12 : IVec S_ 32 := constantI S_ 32 100000#32
  fn_part2 (F := F) main_arg1 main_v30 main_v32 main_c_12

def fn {F : FTy → Type} [FloatOps F] (main_arg0 : IVec S4096 32) (main_arg1 : IVec S4096 32) (main_arg2 : FVec F S1000000x64 .f32) (main_arg3 : FVec F S100000x64 .f32) (main_arg4 : FVec F S1000000x1 .f32) (main_arg5 : FVec F S100000x1 .f32) (main_arg6 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S100000x1 .f32 := Host.absf main_arg5
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg0 main_arg1 main_arg6 main_v13 main_v16
-- ==== Kernel.lean ====
abbrev S4096 : Shape := ⟨1, ![4096]⟩
abbrev S1000000x64 : Shape := ⟨2, ![1000000, 64]⟩
abbrev S100000x64 : Shape := ⟨2, ![100000, 64]⟩
abbrev S1000000x1 : Shape := ⟨2, ![1000000, 1]⟩
abbrev S100000x1 : Shape := ⟨2, ![100000, 1]⟩
abbrev S1 : Shape := ⟨1, ![1]⟩
abbrev S1000000x1x64 : Shape := ⟨3, ![1000000, 1, 64]⟩
abbrev S1000000x1x1 : Shape := ⟨3, ![1000000, 1, 1]⟩
abbrev S100000x1x64 : Shape := ⟨3, ![100000, 1, 64]⟩
abbrev S100000x1x1 : Shape := ⟨3, ![100000, 1, 1]⟩
abbrev S4096x1x64 : Shape := ⟨3, ![4096, 1, 64]⟩
abbrev S4096x1x1 : Shape := ⟨3, ![4096, 1, 1]⟩
abbrev S1x1x64 : Shape := ⟨3, ![1, 1, 64]⟩
abbrev S1x1x1 : Shape := ⟨3, ![1, 1, 1]⟩
abbrev S4096x64 : Shape := ⟨2, ![4096, 64]⟩
abbrev S4096x1 : Shape := ⟨2, ![4096, 1]⟩
abbrev S1x4096 : Shape := ⟨2, ![1, 4096]⟩
abbrev S1x1 : Shape := ⟨2, ![1, 1]⟩
abbrev S4096x4096 : Shape := ⟨2, ![4096, 4096]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 20
  | .vmem => 27
  | .smem => 2
  | _ => 0

abbrev bufTy : (tb : Table) → Fin (tcTables nBuf tb) → BufTy
  | .hbm, ⟨0, _⟩ => ⟨S1000000x64, .f32⟩
  | .hbm, ⟨1, _⟩ => ⟨S100000x64, .f32⟩
  | .hbm, ⟨2, _⟩ => ⟨S1000000x1, .f32⟩
  | .hbm, ⟨3, _⟩ => ⟨S100000x1, .f32⟩
  | .hbm, ⟨4, _⟩ => ⟨S1, .f32⟩
  | .hbm, ⟨5, _⟩ => ⟨S1000000x1x64, .f32⟩
  | .hbm, ⟨6, _⟩ => ⟨S1000000x1x1, .f32⟩
  | .hbm, ⟨7, _⟩ => ⟨S100000x1x64, .f32⟩
  | .hbm, ⟨8, _⟩ => ⟨S100000x1x1, .f32⟩
  | .hbm, ⟨9, _⟩ => ⟨S4096x1x64, .f32⟩
  | .hbm, ⟨10, _⟩ => ⟨S4096x1x1, .f32⟩
  | .hbm, ⟨11, _⟩ => ⟨S4096x1x64, .f32⟩
  | .hbm, ⟨12, _⟩ => ⟨S4096x1x1, .f32⟩
  | .hbm, ⟨13, _⟩ => ⟨S4096x64, .f32⟩
  | .hbm, ⟨14, _⟩ => ⟨S4096x1, .f32⟩
  | .hbm, ⟨15, _⟩ => ⟨S4096x64, .f32⟩
  | .hbm, ⟨16, _⟩ => ⟨S4096x1, .f32⟩
  | .hbm, ⟨17, _⟩ => ⟨S1x4096, .f32⟩
  | .hbm, ⟨18, _⟩ => ⟨S1x1, .f32⟩
  | .hbm, ⟨19, _⟩ => ⟨S4096x4096, .f32⟩
  | .local _ .vmem, ⟨0, _⟩ => ⟨S1x1x64, .f32⟩
  | .local _ .vmem, ⟨1, _⟩ => ⟨S1x1x64, .f32⟩
  | .local _ .vmem, ⟨2, _⟩ => ⟨S1x1x1, .f32⟩
  | .local _ .vmem, ⟨3, _⟩ => ⟨S1x1x1, .f32⟩
  | .local _ .vmem, ⟨4, _⟩ => ⟨S1x1x64, .f32⟩
  | .local _ .vmem, ⟨5, _⟩ => ⟨S1x1x64, .f32⟩
  | .local _ .vmem, ⟨6, _⟩ => ⟨S1x1x1, .f32⟩
  | .local _ .vmem, ⟨7, _⟩ => ⟨S1x1x1, .f32⟩
  | .local _ .vmem, ⟨8, _⟩ => ⟨S1x1x64, .f32⟩
  | .local _ .vmem, ⟨9, _⟩ => ⟨S1x1x64, .f32⟩
  | .local _ .vmem, ⟨10, _⟩ => ⟨S1x1x1, .f32⟩
  | .local _ .vmem, ⟨11, _⟩ => ⟨S1x1x1, .f32⟩
  | .local _ .vmem, ⟨12, _⟩ => ⟨S1x1x64, .f32⟩
  | .local _ .vmem, ⟨13, _⟩ => ⟨S1x1x64, .f32⟩
  | .local _ .vmem, ⟨14, _⟩ => ⟨S1x1x1, .f32⟩
  | .local _ .vmem, ⟨15, _⟩ => ⟨S1x1x1, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x1, .f32⟩
  | .local _ .vmem, ⟨21, _⟩ => ⟨S1024x1, .f32⟩
  | .local _ .vmem, ⟨22, _⟩ => ⟨S1x1024, .f32⟩
  | .local _ .vmem, ⟨23, _⟩ => ⟨S1x1024, .f32⟩
  | .local _ .vmem, ⟨24, _⟩ => ⟨S1x1, .f32⟩
  | .local _ .vmem, ⟨25, _⟩ => ⟨S1024x1024, .f32⟩
  | .local _ .vmem, ⟨26, _⟩ => ⟨S1024x1024, .f32⟩
  | .local _ .smem, ⟨0, _⟩ => ⟨S4096, .i32⟩
  | .local _ .smem, ⟨1, _⟩ => ⟨S4096, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem5_1 : DmaSem sig := 26

abbrev nD : Nat := 1
abbrev τ : Topo := Topo.v7x

variable {F : FTy → Type} [FloatOps F]

abbrev grid0 : Pipeline.Grid := ⟨1, ![4096], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S1000000x64_S1000000x1x64 : S1000000x64.ShapeCasts S1000000x1x64
  shapeCasts_S1000000x1_S1000000x1x1 : S1000000x1.ShapeCasts S1000000x1x1
  shapeCasts_S100000x64_S100000x1x64 : S100000x64.ShapeCasts S100000x1x64
  shapeCasts_S100000x1_S100000x1x1 : S100000x1.ShapeCasts S100000x1x1
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  shapeCasts_S4096x1x64_S4096x64 : S4096x1x64.ShapeCasts S4096x64
  shapeCasts_S4096x1x1_S4096x1 : S4096x1x1.ShapeCasts S4096x1
  shapeCasts_S4096x1_S1x4096 : S4096x1.ShapeCasts S1x4096
  shapeCasts_S1_S1x1 : S1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  k0_off1_inb : ∀ i : grid0.Coords, ∀ a, (k0_off1 i) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S4096x1x64.size a
  hwx0_4 : ∀ i : grid0.Coords, EltTy.bits .f32 = 32 ∨ (Rect.block (s := S4096x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4096x1x1.size a
  hwx0_5 : ∀ i : grid0.Coords, EltTy.bits .f32 = 32 ∨ (Rect.block (s := S4096x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S4096x1x64.size a
  hwx0_6 : ∀ i : grid0.Coords, EltTy.bits .f32 = 32 ∨ (Rect.block (s := S4096x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S4096x1x1.size a
  hwx0_7 : ∀ i : grid0.Coords, EltTy.bits .f32 = 32 ∨ (Rect.block (s := S4096x1x1) S1x1x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S4096x4096.size a
  hwx1_5 : ∀ i : grid1.Coords, EltTy.bits .f32 = 32 ∨ (Rect.block (s := S4096x4096) S1024x1024.size (cc1_transform_5 i) (hinb1_5 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev spec0_0 : Pipeline.WinSpec sig grid0.rank :=
  Pipeline.WinSpec.ofSpec (Memref.whole main_v0) S1x1x64.size reads0_0 false false 2 stage0_0 sem0_0 nbuf0_0 hstage0_0

abbrev spec0_1 : Pipeline.WinSpec sig grid0.rank :=
  Pipeline.WinSpec.ofSpec (Memref.whole main_v1) S1x1x1.size reads0_1 false false 2 stage0_1 sem0_1 nbuf0_1 hstage0_1

abbrev spec0_2 : Pipeline.WinSpec sig grid0.rank :=
  Pipeline.WinSpec.ofSpec (Memref.whole main_v2) S1x1x64.size reads0_2 false false 2 stage0_2 sem0_2 nbuf0_2 hstage0_2

abbrev spec0_3 : Pipeline.WinSpec sig grid0.rank :=
  Pipeline.WinSpec.ofSpec (Memref.whole main_v3) S1x1x1.size reads0_3 false false 2 stage0_3 sem0_3 nbuf0_3 hstage0_3

abbrev spec0_4 : Pipeline.WinSpec sig grid0.rank :=
  Pipeline.WinSpec.ofSpec (Memref.whole main_v4_0) S1x1x64.size reads0_4 true false 2 stage0_4 sem0_4 nbuf0_4 hstage0_4

abbrev spec0_5 : Pipeline.WinSpec sig grid0.rank :=
  Pipeline.WinSpec.ofSpec (Memref.whole main_v4_1) S1x1x1.size reads0_5 true false 2 stage0_5 sem0_5 nbuf0_5 hstage0_5

abbrev spec0_6 : Pipeline.WinSpec sig grid0.rank :=
  Pipeline.WinSpec.ofSpec (Memref.whole main_v4_2) S1x1x64.size reads0_6 true false 2 stage0_6 sem0_6 nbuf0_6 hstage0_6

abbrev spec0_7 : Pipeline.WinSpec sig grid0.rank :=
  Pipeline.WinSpec.ofSpec (Memref.whole main_v4_3) S1x1x1.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S1000000x1x64.size a), EltTy.bits .f32 = 32 ∨ (Rect.block (s := S1000000x1x64) S1x1x64.size (cc0_transform_0 k0_off1_inb numel1_S1 pf i) h).WholeWords (EltTy.packing .f32)) ∧
  (∀ i : grid0.Coords, ∃ h : (∀ a, (cc0_transform_1 k0_off1_inb numel1_S1 pf i a + 1) * S1x1x1.size a ≤ S1000000x1x1.size a), EltTy.bits .f32 = 32 ∨ (Rect.block (s := S1000000x1x1) S1x1x1.size (cc0_transform_1 k0_off1_inb numel1_S1 pf i) h).WholeWords (EltTy.packing .f32)) ∧
  (∀ i : grid0.Coords, ∃ h : (∀ a, (cc0_transform_2 k0_off1_inb numel1_S1 pf i a + 1) * S1x1x64.size a ≤ S100000x1x64.size a), EltTy.bits .f32 = 32 ∨ (Rect.block (s := S100000x1x64) S1x1x64.size (cc0_transform_2 k0_off1_inb numel1_S1 pf i) h).WholeWords (EltTy.packing .f32)) ∧
  (∀ i : grid0.Coords, ∃ h : (∀ a, (cc0_transform_3 k0_off1_inb numel1_S1 pf i a + 1) * S1x1x1.size a ≤ S100000x1x1.size a), EltTy.bits .f32 = 32 ∨ (Rect.block (s := S100000x1x1) S1x1x1.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | 5 => hwx0_5 | 6 => hwx0_6 | 7 => hwx0_7 | ⟨_ + 8, h⟩ => absurd h (Nat.not_lt.2 (Nat.le_add_left _ _))
abbrev win1_0 : Pipeline.Window sig grid1 :=
  Pipeline.Window.ofSpec (Memref.whole main_v5) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where
  harr0 : ∀ w, (spec0 w).arr.IsWhole

variable [Facts]
-- ==== ReferenceIdeal.lean ====
abbrev S4096 : Shape := ⟨1, ![4096]⟩
abbrev S1000000x64 : Shape := ⟨2, ![1000000, 64]⟩
abbrev S100000x64 : Shape := ⟨2, ![100000, 64]⟩
abbrev S1000000x1 : Shape := ⟨2, ![1000000, 1]⟩
abbrev S100000x1 : Shape := ⟨2, ![100000, 1]⟩
abbrev S1 : Shape := ⟨1, ![1]⟩
abbrev S_ : Shape := ⟨0, ![]⟩
abbrev S4096x1 : Shape := ⟨2, ![4096, 1]⟩
abbrev S4096x64 : Shape := ⟨2, ![4096, 64]⟩
abbrev S4096x4096 : Shape := ⟨2, ![4096, 4096]⟩
abbrev S1x4096 : Shape := ⟨2, ![1, 4096]⟩
abbrev S1x1 : Shape := ⟨2, ![1, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S1000000x64, .f32⟩
  | .hbm, ⟨3, _⟩ => ⟨S100000x64, .f32⟩
  | .hbm, ⟨4, _⟩ => ⟨S1000000x1, .f32⟩
  | .hbm, ⟨5, _⟩ => ⟨S100000x1, .f32⟩
  | .hbm, ⟨6, _⟩ => ⟨S1, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x64, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x1, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x64, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S1x1, .f32⟩
  | .hbm, ⟨50, _⟩ => ⟨S4096x4096, .f32⟩
  | .hbm, ⟨51, _⟩ => ⟨S4096x4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  transposes_S4096x1_S1x4096_1_0 : S4096x1.Transposes [1, 0] S1x4096
  bcast_S1x4096_S4096x4096_0_1 : S1x4096.BroadcastsInDim S4096x4096 (![0, 1] : Fin 2 → Fin S4096x4096.rank)
  bcast_S1_S1x1_1 : S1.BroadcastsInDim S1x1 (![1] : Fin 1 → Fin S1x1.rank)
  bcast_S1x1_S4096x4096_0_1 : S1x1.BroadcastsInDim S4096x4096 (![0, 1] : Fin 2 → Fin S4096x4096.rank)
  gather_S1000000x64_S4096x1_S4096x64_1_0_n_n_0_1_164_wf : GatherDims.WF S1000000x64 S4096x1 S4096x64 [1] [0] [] [0] [] 1 ![1, 64]
  gather_S1000000x1_S4096x1_S4096x1_1_0_n_n_0_1_11_wf : GatherDims.WF S1000000x1 S4096x1 S4096x1 [1] [0] [] [0] [] 1 ![1, 1]
  gather_S100000x64_S4096x1_S4096x64_1_0_n_n_0_1_164_wf : GatherDims.WF S100000x64 S4096x1 S4096x64 [1] [0] [] [0] [] 1 ![1, 64]
  gather_S100000x1_S4096x1_S4096x1_1_0_n_n_0_1_11_wf : GatherDims.WF S100000x1 S4096x1 S4096x1 [1] [0] [] [0] [] 1 ![1, 1]
  dot_S4096x64_S4096x64_S4096x4096_1_1_0_0_n_n_wf : DotDims.WF S4096x64 S4096x64 S4096x4096 [1] [1] [0] [0] [] []

variable [Facts₀]

def gather_S1000000x64_S4096x1_S4096x64_1_0_n_n_0_1_164 : GatherDims S1000000x64 S4096x1 S4096x64 where
  offsetDims := [1]
  collapsedSliceDims := [0]
  operandBatchingDims := []
  startIndicesBatchingDims := []
  startIndexMap := [0]
  indexVectorDim := 1
  sliceSizes := ![1, 64]
  wf := gather_S1000000x64_S4096x1_S4096x64_1_0_n_n_0_1_164_wf
def gather_S1000000x1_S4096x1_S4096x1_1_0_n_n_0_1_11 : GatherDims S1000000x1 S4096x1 S4096x1 where
  offsetDims := [1]
  collapsedSliceDims := [0]
  operandBatchingDims := []
  startIndicesBatchingDims := []
  startIndexMap := [0]
  indexVectorDim := 1
  sliceSizes := ![1, 1]
  wf := gather_S1000000x1_S4096x1_S4096x1_1_0_n_n_0_1_11_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100000x1_S4096x1_S4096x1_1_0_n_n_0_1_11 : GatherDims S100000x1 S4096x1 S4096x1 where
  offsetDims := [1]
  collapsedSliceDims := [0]
  operandBatchingDims := []
  startIndicesBatchingDims := []
  startIndexMap := [0]
  indexVectorDim := 1
  sliceSizes := ![1, 1]
  wf := gather_S100000x1_S4096x1_S4096x1_1_0_n_n_0_1_11_wf
def dot_S4096x64_S4096x64_S4096x4096_1_1_0_0_n_n : DotDims S4096x64 S4096x64 S4096x4096 where
  lhsContracting := [1]
  rhsContracting := [1]
  lhsNonContracting := [0]
  rhsNonContracting := [0]
  lhsBatch := []
  rhsBatch := []
  wf := dot_S4096x64_S4096x64_S4096x4096_1_1_0_0_n_n_wf

class Facts : Prop extends Facts₀ where

variable [Facts]
-- ==== Proof.K.Gather.lean ====
/-
  The first pallas_call: a row gather. At grid point t it copies row ids[t] of each of four tables (the two weight
  tables, one row of 64 entries; the two bias columns, one entry) into row t of four outputs. The row number is read
  from a prefetched index table, so everything here is stated for ANY admissible contents `a` of the tables and for
  any contents `V` of the buffers when the call is entered. The body stores each loaded block unchanged (a reshape
  to its own shape), so each output block after the body is a function of the one input block it copies.
-/
import proofs.«404068_j7576322310165_2_alg».proof.Proof.Gen.Kernel.Launch
import proofs.«404068_j7576322310165_2_alg».proof.Proof.Gen.Kernel.Skeleton
import proofs.«404068_j7576322310165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg0 (F := F)).Adm)

/-! ## The blocks of the gather's windows -/

/-- Block of window `w` at grid point `t`, read off the window's array as the call finds it. For the four input
    windows the block's row is the table's word at `t`. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- An input window's staging buffer holds its block at every point, whether or not the point fetched it. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole [1,1,64] block and the whole [1,1,1] block: the rectangles of every load and store of the body. -/
abbrev r64 : Rect S1x1x64 := Rect.unit (s := S1x1x64) ![0, 0, 0] S1x1x64.size inb_S1x1x64_S1x1x64_0_0_0
abbrev r1 : Rect S1x1x1 := Rect.unit (s := S1x1x1) ![0, 0, 0] S1x1x1.size inb_S1x1x1_S1x1x1_0_0_0

/-- The four output blocks after the body, each from the input block it copies. -/
def out0_4 (x0 : Vec F S1x1x64 .f32) : Vec F S1x1x64 .f32 := View.canon [⟨r64, k0_pay1 (View.ld x0 r64)⟩]
def out0_5 (x1 : Vec F S1x1x1 .f32) : Vec F S1x1x1 .f32 := View.canon [⟨r1, k0_pay2 (View.ld x1 r1)⟩]
def out0_6 (x2 : Vec F S1x1x64 .f32) : Vec F S1x1x64 .f32 := View.canon [⟨r64, k0_pay3 (View.ld x2 r64)⟩]
def out0_7 (x3 : Vec F S1x1x1 .f32) : Vec F S1x1x1 .f32 := View.canon [⟨r1, k0_pay4 (View.ld x3 r1)⟩]

/-- One store of the whole block covers it. -/
theorem cover64 (p0 : Vec F S1x1x64 .f32) (y : S1x1x64.Idx) :
    ∃ pc ∈ ([⟨r64, p0⟩] : List (View.Piece (Elt F) S1x1x64 .f32)), y ∈ pc.1.set :=
  View.cover_of_tiled [⟨r64, p0⟩] S1x1x64.size (by rfl) y
theorem cover1 (p0 : Vec F S1x1x1 .f32) (y : S1x1x1.Idx) :
    ∃ pc ∈ ([⟨r1, p0⟩] : List (View.Piece (Elt F) S1x1x1 .f32)), y ∈ pc.1.set :=
  View.cover_of_tiled [⟨r1, p0⟩] S1x1x1.size (by rfl) y

/-! ## The body's triple -/

set_option maxHeartbeats 1000000 in
/-- The copy body on whole staging buffers: the four inputs at contents `x0 … x3`, the four outputs at anything. It
    ends with the inputs untouched and each output at the copy of its input. It never reads the index tables. -/
theorem sound_kernel0 (c : Dev nD) (E : Set ℕ) (i : grid0.Coords)
    (arg1 : Memref sig .tc .smem S4096 .i32) (harg1 : arg1.IsWhole) (arg2 : Memref sig .tc .smem S4096 .i32) (harg2 : arg2.IsWhole)
    (arg3 : Memref sig .tc .vmem S1x1x64 .f32) (harg3 : arg3.IsWhole) (arg4 : Memref sig .tc .vmem S1x1x1 .f32) (harg4 : arg4.IsWhole)
    (arg5 : Memref sig .tc .vmem S1x1x64 .f32) (harg5 : arg5.IsWhole) (arg6 : Memref sig .tc .vmem S1x1x1 .f32) (harg6 : arg6.IsWhole)
    (arg7 : Memref sig .tc .vmem S1x1x64 .f32) (harg7 : arg7.IsWhole) (arg8 : Memref sig .tc .vmem S1x1x1 .f32) (harg8 : arg8.IsWhole)
    (arg9 : Memref sig .tc .vmem S1x1x64 .f32) (harg9 : arg9.IsWhole) (arg10 : Memref sig .tc .vmem S1x1x1 .f32) (harg10 : arg10.IsWhole)
    (x0 : Vec F S1x1x64 .f32) (x1 : Vec F S1x1x1 .f32) (x2 : Vec F S1x1x64 .f32) (x3 : Vec F S1x1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out0_4 x0) ∗ owns (c : Thread nD τ) arg8 fullShare (out0_5 x1)
            ∗ owns (c : Thread nD τ) arg9 fullShare (out0_6 x2) ∗ owns (c : Thread nD τ) arg10 fullShare (out0_7 x3)) -∗ K ⟨⟩))
      ⊢ wp frame (wpE (defs₀ (F := F)) Variants.none c none) E
          (cc0__gather_kernel i arg1 harg1 arg2 harg2 arg3 harg3 arg4 harg4 arg5 harg5 arg6 harg6 arg7 harg7 arg8 harg8 arg9 harg9 arg10 harg10) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro; exact View.read_writes_eq_canon _ _ _ (cover64 _)
  isplitl [H5]
  · iexists _; isplitr
    swap; · iexact H5
    ipureintro; exact View.read_writes_eq_canon _ _ _ (cover1 _)
  isplitl [H6]
  · iexists _; isplitr
    swap; · iexact H6
    ipureintro; exact View.read_writes_eq_canon _ _ _ (cover64 _)
  iexists _; isplitr
  swap; · iexact H7
  ipureintro; exact View.read_writes_eq_canon _ _ _ (cover1 _)

/-! ## The proof data of the gather's pipeline -/

/-- The staging buffer each window is on at point `t`, and the body as the pipeline calls it there. -/
abbrev st0_0 (t : Fin (cfg0 a).N) := spec0_0.stage ((cfg0 a).slots t 0)
abbrev st0_1 (t : Fin (cfg0 a).N) := spec0_1.stage ((cfg0 a).slots t 1)
abbrev st0_2 (t : Fin (cfg0 a).N) := spec0_2.stage ((cfg0 a).slots t 2)
abbrev st0_3 (t : Fin (cfg0 a).N) := spec0_3.stage ((cfg0 a).slots t 3)
abbrev st0_4 (t : Fin (cfg0 a).N) := spec0_4.stage ((cfg0 a).slots t 4)
abbrev st0_5 (t : Fin (cfg0 a).N) := spec0_5.stage ((cfg0 a).slots t 5)
abbrev st0_6 (t : Fin (cfg0 a).N) := spec0_6.stage ((cfg0 a).slots t 6)
abbrev st0_7 (t : Fin (cfg0 a).N) := spec0_7.stage ((cfg0 a).slots t 7)

abbrev bodyAt0 (t : Fin (cfg0 a).N) : Prog (TpuEff nD τ sig (Elt F) Λ₀ .tc) PUnit :=
  cc0__gather_kernel (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))

/-- The pipeline's proof data on core `c`: arrays as the call finds them; after the body each input buffer at its
    block, each output buffer at the copy of the matching input block; the invariant holds the scoped rest, the
    generator register and the index tables whole (the body never touches them); nothing owed. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => out0_4 (iblk0 V a c 0 t)
    | ⟨5, _⟩ => out0_5 (iblk0 V a c 1 t)
    | ⟨6, _⟩ => out0_6 (iblk0 V a c 2 t)
    | ⟨7, _⟩ => out0_7 (iblk0 V a c 3 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) : (dat0 V a c).after 4 t = out0_4 (iblk0 V a c 0 t) := by dsimp only [dat0]; try rfl
theorem after0_5 (c : Dev nD) (t : Fin (cfg0 a).N) : (dat0 V a c).after 5 t = out0_5 (iblk0 V a c 1 t) := by dsimp only [dat0]; try rfl
theorem after0_6 (c : Dev nD) (t : Fin (cfg0 a).N) : (dat0 V a c).after 6 t = out0_6 (iblk0 V a c 2 t) := by dsimp only [dat0]; try rfl
theorem after0_7 (c : Dev nD) (t : Fin (cfg0 a).N) : (dat0 V a c).after 7 t = out0_7 (iblk0 V a c 3 t) := by dsimp only [dat0]; try rfl

theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d

/-! ## The body obligation -/

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t))

theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ _ _ _ _
    (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V a c) (defs₀ (F := F)) Variants.none () Set.univ := fun t => by
  rw [bigSep_W0, bigSep_W0]
  exact sound_body0 V a c t

end Cert.Kernel.Hand

end
-- ==== Proof.K.Matmul.lean ====
/-
  The second pallas_call: on a 4 x 4 grid, point (i, j) computes the [1024, 1024] block of the rating matrix from
  rows block i of the gathered user weights, rows block j of the gathered item weights, the matching user-bias column
  block, item-bias row block and the single global bias: one product of the two [1024, 64] blocks contracted over the
  64 latent entries, plus the three biases. Stated for any contents `V` of the buffers when the call is entered.
-/
import proofs.«404068_j7576322310165_2_alg».proof.Proof.Gen.Kernel.Launch
import proofs.«404068_j7576322310165_2_alg».proof.Proof.Gen.Kernel.Skeleton
import proofs.«404068_j7576322310165_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the product's windows -/

/-- Block of window `w` at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole-block rectangles of the body's loads and its one store. -/
abbrev q0 : Rect S1024x64 := Rect.unit (s := S1024x64) ![0, 0] S1024x64.size inb_S1024x64_S1024x64_0_0
abbrev q2 : Rect S1024x1 := Rect.unit (s := S1024x1) ![0, 0] S1024x1.size inb_S1024x1_S1024x1_0_0
abbrev q3 : Rect S1x1024 := Rect.unit (s := S1x1024) ![0, 0] S1x1024.size inb_S1x1024_S1x1024_0_0
abbrev q4 : Rect S1x1 := Rect.unit (s := S1x1) ![0, 0] S1x1.size inb_S1x1_S1x1_0_0
abbrev q5 : Rect S1024x1024 := Rect.unit (s := S1024x1024) ![0, 0] S1024x1024.size inb_S1024x1024_S1024x1024_0_0

/-- The output block after the body: the product of the two weight blocks plus the three biases, of the five input blocks. -/
def out1_5 (x0 : Vec F S1024x64 .f32) (x1 : Vec F S1024x64 .f32) (x2 : Vec F S1024x1 .f32) (x3 : Vec F S1x1024 .f32) (x4 : Vec F S1x1 .f32) :
    Vec F S1024x1024 .f32 :=
  View.canon [⟨q5, k1_pay1 (View.ld x0 q0) (View.ld x1 q0) (View.ld x2 q2) (View.ld x3 q3) (View.ld x4 q4)⟩]

/-- One store of the whole block covers it. -/
theorem cover1_5 (p0 : Vec F S1024x1024 .f32) (y : S1024x1024.Idx) :
    ∃ pc ∈ ([⟨q5, p0⟩] : List (View.Piece (Elt F) S1024x1024 .f32)), y ∈ pc.1.set :=
  View.cover_of_tiled [⟨q5, p0⟩] S1024x1024.size (by rfl) y

/-! ## The body's triple -/

set_option maxHeartbeats 1000000 in
/-- The body on whole staging buffers: the five inputs at `x0 … x4`, the output at anything. It ends with the inputs
    untouched and the output at `out1_5` of them. -/
theorem sound_kernel1 (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x1 .f32) (harg6 : arg6.IsWhole) (arg7 : Memref sig .tc .vmem S1024x1024 .f32) (harg7 : arg7.IsWhole)
    (x0 : Vec F S1024x64 .f32) (x1 : Vec F S1024x64 .f32) (x2 : Vec F S1024x1 .f32) (x3 : Vec F S1x1024 .f32) (x4 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__mm_kernel i arg2 harg2 arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover1_5 _)

/-! ## The proof data of the product's pipeline -/

/-- Arrays as the call finds them; after the body each input buffer at its block and the output buffer at `out1_5`
    of the five input blocks; the invariant is the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as four segments: reshapes of the four tables to a unit middle axis; the row gather; reshapes of
  its four outputs back to rank 2 (and the item-bias column to a row, the global bias to [1,1]); the blocked product.
  The buffers' contents at the five boundaries are named `W0 … W4`, each from the one before: a host stretch applies
  its operations, a call replaces its windows' arrays by what its pipeline leaves. The index tables are read where the
  gather is entered; the run holds when every table-indexed block lies inside its array (`Ok`). Its post names
  every unscoped buffer's final contents (`W4`), from which both the unchanged arguments and the result are read.
-/
import proofs.«404068_j7576322310165_2_alg».proof.Proof.K.Gather
import proofs.«404068_j7576322310165_2_alg».proof.Proof.K.Matmul
import proofs.«404068_j7576322310165_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the boundaries before the gather, and the tables -/

/-- At launch. -/
abbrev W0 : Dev nD → Valuation τ sig (Elt F) := fun c b => (s₀ m ρ).mem ((c : Dev nD), b)
/-- After the first reshapes: where the gather is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The index tables' contents where the gather is entered (there is one device). -/
def tbl : pre0.Contents (Elt F) := fun j => V1 m ρ (0 : Dev nD) (pre0.ref j)
theorem V1_pre (c : Dev nD) (j : Fin 2) : V1 m ρ c (pre0.ref j) = tbl m ρ j := by
  obtain rfl : c = 0 := Subsingleton.elim _ _; rfl
/-- Every table-indexed block of the gather lies inside its array. -/
abbrev Ok : Prop := ok0 (F := F) (tbl m ρ)

variable (hO : Ok m ρ)

/-- The tables as admissible contents of the gather's pipeline. -/
abbrev a0 : (pcfg0 (F := F)).Adm := ⟨tbl m ρ, hO⟩

/-! ## Contents after the gather and after the product -/

/-- After the gather: its eight arrays at what the pipeline leaves, everything else as entered. -/
def W2 (c : Dev nD) : Valuation τ sig (Elt F) :=
  Pipeline.withArrays spec0 c (W1 m ρ c) fun w => (dat0 (V1 m ρ) (a0 m ρ hO) c).arrAt w (cfg0 (a0 m ρ hO)).N
theorem W2_arr (c : Dev nD) (w : Fin 8) :
    W2 m ρ hO c (Proc.devRef .tc (Pipeline.arrRef spec0 w)) = (dat0 (V1 m ρ) (a0 m ρ hO) c).arrAt w (cfg0 (a0 m ρ hO)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hO c b
theorem hF0 (c : Dev nD) (w : Fin 8) :
    (dat0 (V1 m ρ) (a0 m ρ hO) c).arrAt w (cfg0 (a0 m ρ hO)).N = V2 m ρ hO c (Pipeline.arrRef spec0 w) :=
  (W2_arr m ρ hO c w).symm
theorem hrest0 (c : Dev nD) : ∀ b, b ∉ Finset.univ.image (Pipeline.arrRef spec0) → V2 m ρ hO c b = V1 m ρ c b :=
  fun b hb => W2_of_ne m ρ hO c b fun w e => hb (Finset.mem_image.mpr ⟨w, Finset.mem_univ _, e⟩)

/-- After the second reshapes: where the product is entered. -/
abbrev W3 : Dev nD → Valuation τ sig (Elt F) := fun c => StableHlo.after hostOps1 (W2 m ρ hO c)
abbrev V3 : (c : Dev nD) → (b : Ref sig .tc) → Buf (Elt F) ((c : Thread nD τ).loc b) := fun c b => W3 m ρ hO c b

/-- After the product: its six arrays at what the pipeline leaves, everything else as entered. -/
def W4 (c : Dev nD) : Valuation τ sig (Elt F) :=
  Pipeline.withArrays spec1 c (W3 m ρ hO c) fun w => (dat1 (V3 m ρ hO) c).arrAt w cfg1.N
theorem W4_arr (c : Dev nD) (w : Fin cfg1.W) :
    W4 m ρ hO c (Proc.devRef .tc (Pipeline.arrRef spec1 w)) = (dat1 (V3 m ρ hO) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 : (c : Dev nD) → (b : Ref sig .tc) → Buf (Elt F) ((c : Thread nD τ).loc b) := fun c b => W4 m ρ hO c b
theorem hF1 (c : Dev nD) (w : Fin cfg1.W) : (dat1 (V3 m ρ hO) c).arrAt w cfg1.N = V4 m ρ hO c (Pipeline.arrRef spec1 w) :=
  (W4_arr m ρ hO c w).symm
theorem hrest1 (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)

/-! ## The proof data family and the thread state -/

/-- Admissible table contents per pipeline: the gather's at the tables read, the product has none. -/
def adm : (p : Fin 2) → (pcfgs (F := F) p).Adm
  | ⟨0, _⟩ => a0 m ρ hO
  | ⟨1, _⟩ => cfg1.toPCfg_adm

/-- Each pipeline's proof data at the contents its call is entered from. -/
def pdats : (p : Fin 2) → (c : Dev nD) → Dat τ (Elt F) Unit ℕ (UR sig nD τ) ℕ (Pipeline.pin (pcfgs (F := F)) (adm m ρ hO) p) c
  | ⟨0, _⟩ => fun c => dat0 (V1 m ρ) (a0 m ρ hO) c
  | ⟨1, _⟩ => fun c => dat1 (V3 m ρ hO) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hO c) ∗ ∃ r, prngReg c r)

/-- The unscoped buffers that are no array of the gather: the two index tables, and the rest. -/
theorem rest0_split (c : Dev nD) :
    (Pipeline.unscopedRest (Ix := Unit) (Name := ℕ) (U := UR sig nD τ) (Lvl := ℕ) spec0 c (V1 m ρ c) : sProp 𝕄)
      = iprop(Pipeline.prefHeld pre0 c (fun _ => fullShare) (tbl m ρ)
          ∗ Pipeline.unscopedRestP (Ix := Unit) (Name := ℕ) (U := UR sig nD τ) (Lvl := ℕ) pre0 spec0 c (V1 m ρ c)) := by
  rw [Pipeline.unscopedRest_split (win := spec0) (pre := pre0) preFacts0 c (V1 m ρ c),
    show (fun k => V1 m ρ c (pre0.ref k)) = tbl m ρ from funext (V1_pre m ρ c)]

/-! ## The two calls as segments -/

set_option backward.isDefEq.respectTransparency.types false in
/-- The gather: entered from every unscoped buffer at `W1`, left at `W2`. Its arrays and the two tables are split
    out of the unscoped buffers; the tables and the generator register go into the invariant and come back. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) (a0 m ρ hO) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ Pipeline.prefHeld pre0 c (fun _ => fullShare) (tbl m ρ))
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest0_split m ρ c)) $$ Hrest
    icases H' with ⟨Hpf, HR⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HR
  hin c := by
    rw [show (pdats m ρ hO 0 c).Φ 0 = iprop(Pipeline.ΦA spec0 c ∗ Pipeline.prefHeld pre0 c (fun _ => fullShare) (tbl m ρ)) from rfl]
    unfold Pipeline.ΦA
    iintro ⟨Hp, Hpf, Hr⟩
    isplitl [Hr Hp]
    · isplitl [Hr]; · iexact Hr
      iexact Hp
    iexact Hpf
  hout c := by
    rw [Pipeline.ownSems0_none,
      show (pdats m ρ hO 0 c).Φ (Fin.last _) = iprop(Pipeline.ΦA spec0 c ∗ Pipeline.prefHeld pre0 c (fun _ => fullShare) (tbl m ρ)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ hO c) ((pdats m ρ hO 0 c).arrAt · (cfg0 (a0 m ρ hO)).N) (hF0 m ρ hO c) (hrest0 m ρ hO c)
    rw [Pipeline.unscopedBufs_held] at hjoin
    iintro ⟨Ha, HO, ⟨HY, Hpf⟩, HR⟩
    ihave Hrest := (Entails.of_eq (rest0_split m ρ c).symm) $$ [Hpf HR]
    · isplitl [Hpf]; · iexact Hpf
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product: entered from every unscoped buffer at `W3`, left at `W4`. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO) ]

theorem main_run (c : Dev nD) : main (F := F) c = Pipeline.Seg.run (segs m ρ hO) := (main_chain c).trans (by chain_rfl)

set_option backward.isDefEq.respectTransparency.types false in
/-- Under `Ok`: every weakly fair execution of the program from memory `m` with zero counters terminates without a
    fault, and every unscoped buffer of every core ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO)))
      (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO)))
              (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO)))
              (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hO c) s')
      isplitl [Hh] <;> iassumption)
    (hQ := fun s h c => h c)

end Cert.Kernel.Hand

end
-- ==== Proof.K.Frame.lean ====
/-
  The frame: no host operation writes an argument and no argument is a window's array of either call, so each argument's
  buffer ends as launched; with the run this is the program's frame under `Ok`. The result array is the product's
  output window's array after its last grid point.
-/
import proofs.«404068_j7576322310165_2_alg».proof.Proof.K.Run
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg) (hO : Ok m ρ)

/-- The index tables where the gather is entered are the launch's: the first reshapes do not write them. -/
theorem tbl_0 : tbl m ρ 0 = m (((0 : Dev nD) : Thread nD τ).loc main_arg0) := by
  unfold tbl
  show StableHlo.after hostOps0 (fun b => m ((0 : Dev nD), b)) (Proc.devRef .tc main_arg0) = _
  after_results
theorem tbl_1 : tbl m ρ 1 = m (((0 : Dev nD) : Thread nD τ).loc main_arg1) := by
  unfold tbl
  show StableHlo.after hostOps0 (fun b => m ((0 : Dev nD), b)) (Proc.devRef .tc main_arg1) = _
  after_results

/-- A buffer that no host operation writes and that is no array of either call ends as launched. -/
theorem W4_kept (c : Dev nD) (r : Ref sig .tc) (h0 : r ∉ hostOps0_W) (h1 : r ∉ hostOps1_W)
    (hs0 : ∀ w, Pipeline.arrRef spec0 w ≠ r) (hs1 : ∀ w, Pipeline.arrRef spec1 w ≠ r) :
    W4 m ρ hO c (Proc.devRef .tc r) = m ((c : Thread nD τ).loc r) :=
  (W4_of_ne m ρ hO c r hs1).trans <|
    (StableHlo.after_of_writes_sub hostOps1 _ hostOps1_writes h1).trans <|
      (W2_of_ne m ρ hO c r hs0).trans <|
        (StableHlo.after_of_writes_sub hostOps0 _ hostOps0_writes h0).trans rfl

/-- The result array at the end is what the product's pipeline leaves in its output window's array. -/
theorem W4_result (c : Dev nD) : W4 m ρ hO c (Proc.devRef .tc main_v11) = (dat1 (V3 m ρ hO) c).arrAt 5 cfg1.N :=
  W4_arr m ρ hO c 5

include hO in
/-- The program's frame under `Ok`: it runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_kept m ρ hO c main_arg0 (by decide) (by decide) (by decide) (by decide)),
     (h c _ (mem_uc main_arg1 (by decide))).trans (W4_kept m ρ hO c main_arg1 (by decide) (by decide) (by decide) (by decide)),
     (h c _ (mem_uc main_arg2 (by decide))).trans (W4_kept m ρ hO c main_arg2 (by decide) (by decide) (by decide) (by decide)),
     (h c _ (mem_uc main_arg3 (by decide))).trans (W4_kept m ρ hO c main_arg3 (by decide) (by decide) (by decide) (by decide)),
     (h c _ (mem_uc main_arg4 (by decide))).trans (W4_kept m ρ hO c main_arg4 (by decide) (by decide) (by decide) (by decide)),
     (h c _ (mem_uc main_arg5 (by decide))).trans (W4_kept m ρ hO c main_arg5 (by decide) (by decide) (by decide) (by decide)),
     (h c _ (mem_uc main_arg6 (by decide))).trans (W4_kept m ρ hO c main_arg6 (by decide) (by decide) (by decide) (by decide))⟩)
    (run_all m ρ hO)

include hO in
/-- The same run, naming the result array's final contents as well. -/
theorem run_result : θ_run defs (onTc (τ := τ) (main (F := F))) ⟨m, fun _ => 0, ρ⟩ (fun r => ∀ c : Dev nD,
      r.2.mem ((c.tc : Thread nD τ).loc main_v11) = W4 m ρ hO c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v11 (by decide)),
     (h c _ (mem_uc main_arg0 (by decide))).trans (W4_kept m ρ hO c main_arg0 (by decide) (by decide) (by decide) (by decide)),
     (h c _ (mem_uc main_arg1 (by decide))).trans (W4_kept m ρ hO c main_arg1 (by decide) (by decide) (by decide) (by decide)),
     (h c _ (mem_uc main_arg2 (by decide))).trans (W4_kept m ρ hO c main_arg2 (by decide) (by decide) (by decide) (by decide)),
     (h c _ (mem_uc main_arg3 (by decide))).trans (W4_kept m ρ hO c main_arg3 (by decide) (by decide) (by decide) (by decide)),
     (h c _ (mem_uc main_arg4 (by decide))).trans (W4_kept m ρ hO c main_arg4 (by decide) (by decide) (by decide) (by decide)),
     (h c _ (mem_uc main_arg5 (by decide))).trans (W4_kept m ρ hO c main_arg5 (by decide) (by decide) (by decide) (by decide)),
     (h c _ (mem_uc main_arg6 (by decide))).trans (W4_kept m ρ hO c main_arg6 (by decide) (by decide) (by decide) (by decide))⟩)
    (run_all m ρ hO)

end Cert.Kernel.Hand

end
-- ==== Proof.K.OkOfRanges.lean ====
/-
  The gather's side condition from the index ranges: a user id below 1000000 names a row block of the [1000000, 1, 64]
  and [1000000, 1, 1] tables, an item id below 100000 a row block of the [100000, 1, 64] and [100000, 1, 1] tables; the
  blocks have one row, so block index and row index coincide.
-/
import proofs.«404068_j7576322310165_2_alg».proof.Proof.Gen.Kernel.Launch
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- One row block `[w, 0, 0]` of extent `[1, 1, m]` lies inside an `[n, 1, m]` array as soon as `w < n`: on the
    row axis `(w + 1) · 1 ≤ n`, on the other two the block is the whole axis. -/
private theorem row_block_inside {n m w : Nat} (hw : w < n) (a : Fin 3) :
    ((![w, 0, 0] : Fin 3 → Nat) a + 1) * (⟨3, ![1, 1, m]⟩ : Shape).size a ≤ (⟨3, ![n, 1, m]⟩ : Shape).size a := by
  match a with
  | ⟨0, _⟩ => show (w + 1) * 1 ≤ n; omega
  | ⟨1, _⟩ => show (0 + 1) * 1 ≤ 1; omega
  | ⟨2, _⟩ => show (0 + 1) * m ≤ m; omega

/-- For ANY contents `pf` of the two index tables whose words are in range, every table-indexed block is inside its array. -/
theorem ok_of_ranges (pf : pre0.Contents (Elt F))
    (h0 : ∀ x, (pf 0 x).toNat < 1000000) (h1 : ∀ x, (pf 1 x).toNat < 100000) : ok0 (F := F) pf := by
  -- each index map returns `[w, 0, 0]` for the word `w` it reads from its table; f32 is a word-wide type
  refine ⟨fun i => ⟨fun a => ?_, Or.inl rfl⟩, fun i => ⟨fun a => ?_, Or.inl rfl⟩,
    fun i => ⟨fun a => ?_, Or.inl rfl⟩, fun i => ⟨fun a => ?_, Or.inl rfl⟩⟩
  · exact row_block_inside (h0 _) a
  · exact row_block_inside (h0 _) a
  · exact row_block_inside (h1 _) a
  · exact row_block_inside (h1 _) a

end Cert.Kernel.Hand

end
-- ==== Proof.Val.Spec.lean ====
/-
  The rating matrix as one function of the arguments, index by index:

      rating[i, j] = (((Σ_k uw[u i, k] · iw[v j, k]) + ub[u i, 0]) + ib[v j, 0]) + b[0]

  where `u i` is the user row that batch entry `i` names and `v j` the item row that batch entry `j` names. The sum
  runs over the 64 latent coordinates; the three bias terms are added in this order on both sides, so no law of the
  extended reals beyond this spelling is needed.
-/
import Idealize.ShloMosaic.Lib.ValueIdx
import Idealize.ShloMosaic.PureOps.Ideal

noncomputable section

namespace Cert.Rating

open Idealize.ShloMosaic Idealize.ShloMosaic.ValueIdx

/-- The row a batch entry names: the entry's word read as a natural number, given that it is below the table's height. -/
def rowOf (n : Nat) (ids : (⟨1, ![4096]⟩ : Shape).Idx → BitVec 32) (h : ∀ i : Fin 4096, (ids (ix1 i)).toNat < n) (i : Fin 4096) : Fin n :=
  ⟨(ids (ix1 i)).toNat, h i⟩

/-- Every entry of an index vector, read as a signed word, lies in `[0, n)`: the two word comparisons a range test makes. -/
structure InRange (n : Nat) (ids : (⟨1, ![4096]⟩ : Shape).Idx → BitVec 32) : Prop where
  ge : ∀ i : Fin 4096, IntOp.cmpi .sge (ids (ix1 i)) 0#32 = 1#1
  lt : ∀ i : Fin 4096, IntOp.cmpi .slt (ids (ix1 i)) (BitVec.ofNat 32 n) = 1#1

/-- Entry `(i, j)` of the rating matrix. -/
def ratingAt (u : Fin 4096 → Fin 1000000) (v : Fin 4096 → Fin 100000)
    (uw : (⟨2, ![1000000, 64]⟩ : Shape).Idx → EReal) (iw : (⟨2, ![100000, 64]⟩ : Shape).Idx → EReal)
    (ub : (⟨2, ![1000000, 1]⟩ : Shape).Idx → EReal) (ib : (⟨2, ![100000, 1]⟩ : Shape).Idx → EReal)
    (b : (⟨1, ![1]⟩ : Shape).Idx → EReal) (i j : Fin 4096) : EReal :=
  (((∑ k : Fin 64, uw (ix2 (u i) k) * iw (ix2 (v j) k)) + ub (ix2 (u i) (0 : Fin 1))) + ib (ix2 (v j) (0 : Fin 1))) + b (ix1 (0 : Fin 1))

end Cert.Rating

end
-- ==== Proof.Pre.Ranges.lean ====
/-
  The precondition decoded: it says every float input is finite and every user id lies in [0, 1000000), every item id
  in [0, 100000), each as a signed word comparison. From it: the two index vectors are in range; and a word in [0, n)
  signed is non-negative, is below n read unsigned, and reads the same signed and unsigned.
-/
import proofs.«404068_j7576322310165_2_alg».proof.Pre_finite_inputs
import proofs.«404068_j7576322310165_2_alg».proof.Proof.Val.Spec
import Idealize.ShloMosaic.Lib.ReduceAll
import Idealize.ShloMosaic.Lib.StableHlo.Predicate
import Idealize.ShloMosaic.Lib.ValueIdx

noncomputable section

namespace Cert.Rating

open Idealize.ShloMosaic Idealize.ShloMosaic.ValueIdx

/-- A word that passes the signed test `w ≥ 0` has its top bit clear: its unsigned value is below 2³¹. -/
private theorem toNat_lt_of_sge_zero {w : BitVec 32} (h : IntOp.cmpi .sge w 0#32 = 1#1) : w.toNat < 2 ^ 31 := by
  unfold IntOp.cmpi at h
  rw [StableHlo.Predicate.ofBool_eq_one_iff] at h
  simp only [BitVec.sle, decide_eq_true_eq] at h
  have h32 := w.isLt
  have h0 : (0#32 : BitVec 32).toInt = 0 := by decide
  rw [h0, BitVec.toInt_eq_toNat_cond] at h
  split at h <;> omega

/-- A word below 2³¹ unsigned and below `n` signed is below `n` unsigned, when `n` itself is below 2³¹. -/
private theorem toNat_lt_of_slt {w : BitVec 32} {n : Nat} (hn : n < 2 ^ 31) (hw : w.toNat < 2 ^ 31)
    (h : IntOp.cmpi .slt w (BitVec.ofNat 32 n) = 1#1) : w.toNat < n := by
  have hb : (BitVec.ofNat 32 n).toNat = n := by rw [BitVec.toNat_ofNat]; exact Nat.mod_eq_of_lt (by omega)
  have := (StableHlo.Predicate.slt_iff_toNat hw (by rw [hb]; exact hn)).1 h
  rwa [hb] at this

/-- A word below 2³¹ fails the signed test `w < 0`. -/
private theorem slt_zero_of_toNat_lt {w : BitVec 32} (hw : w.toNat < 2 ^ 31) : IntOp.cmpi .slt w 0#32 = 0#1 := by
  unfold IntOp.cmpi
  have hi : w.toInt = w.toNat := StableHlo.Predicate.toInt_eq_toNat_of_lt hw
  have h0 : (0#32 : BitVec 32).toInt = 0 := by decide
  have : w.slt 0#32 = false := by
    simp only [BitVec.slt, hi, h0, decide_eq_false_iff_not]; omega
  rw [this]; rfl

/-- A word in [0, n) signed is below n unsigned. -/
theorem InRange.toNat_lt {n : Nat} {ids : (⟨1, ![4096]⟩ : Shape).Idx → BitVec 32} (h : InRange n ids) (hn : n < 2 ^ 31) (i : Fin 4096) :
    (ids (ix1 i)).toNat < n :=
  toNat_lt_of_slt hn (toNat_lt_of_sge_zero (h.ge i)) (h.lt i)

/-- A word in [0, n) signed is not negative: the test `w < 0` is false. -/
theorem InRange.not_neg {n : Nat} {ids : (⟨1, ![4096]⟩ : Shape).Idx → BitVec 32} (h : InRange n ids) (i : Fin 4096) :
    IntOp.cmpi .slt (ids (ix1 i)) 0#32 = 0#1 :=
  slt_zero_of_toNat_lt (toNat_lt_of_sge_zero (h.ge i))

/-- A non-negative signed word reads the same unsigned. -/
theorem InRange.toInt_toNat {n : Nat} {ids : (⟨1, ![4096]⟩ : Shape).Idx → BitVec 32} (h : InRange n ids) (i : Fin 4096) :
    (ids (ix1 i)).toInt.toNat = (ids (ix1 i)).toNat := by
  rw [StableHlo.Predicate.toInt_eq_toNat_of_lt (toNat_lt_of_sge_zero (h.ge i))]
  exact Int.toNat_natCast _

variable [Cert.Pre_finite_inputs.Facts] {F : FTy → Type} [FloatOps F]

/-- The scalar shape has one index. -/
private instance : Subsingleton Cert.Pre_finite_inputs.S_.Idx := ⟨fun a b => funext fun d => d.elim0⟩

/-- The printed precondition, all ones, gives both ranges. -/
theorem inRange_of_pre (a0 a1 : IVec Cert.Pre_finite_inputs.S4096 32) (a2 : FVec F Cert.Pre_finite_inputs.S1000000x64 .f32)
    (a3 : FVec F Cert.Pre_finite_inputs.S100000x64 .f32) (a4 : FVec F Cert.Pre_finite_inputs.S1000000x1 .f32)
    (a5 : FVec F Cert.Pre_finite_inputs.S100000x1 .f32) (a6 : FVec F Cert.Pre_finite_inputs.S1 .f32)
    (h : Cert.Pre_finite_inputs.fn (F := F) a0 a1 a2 a3 a4 a5 a6 = fun _ => 1#1) :
    InRange 1000000 a0 ∧ InRange 100000 a1 := by
  have e := congrFun h ix0
  unfold Cert.Pre_finite_inputs.fn Cert.Pre_finite_inputs.fn_part1 Cert.Pre_finite_inputs.fn_part2 at e
  dsimp only at e
  -- the result is the conjunction (… ∧ all(user ids in range)) ∧ all(item ids in range)
  obtain ⟨e30, e36⟩ := IntOp.andi_eq_one.1 e
  obtain ⟨-, e29⟩ := IntOp.andi_eq_one.1 e30
  -- each `all` is 1, so its operand is 1 at every position: both comparisons hold there
  have u := fun i : Fin 4096 => IntOp.andi_eq_one.1 (Host.reduce_andi_all _ _ _ _ ix0 e29 (ix1 i))
  have v := fun i : Fin 4096 => IntOp.andi_eq_one.1 (Host.reduce_andi_all _ _ _ _ ix0 e36 (ix1 i))
  exact ⟨⟨fun i => (u i).1, fun i => (u i).2⟩, ⟨fun i => (v i).1, fun i => (v i).2⟩⟩

end Cert.Rating

end
-- ==== Proof.K.OkOfPre.lean ====
/-
  From the precondition to the gather's side condition: the precondition bounds every id, the index tables where the
  gather is entered are the launch's id vectors, and an id in range names a block inside its table.
-/
import proofs.«404068_j7576322310165_2_alg».proof.Proof.K.Frame
import proofs.«404068_j7576322310165_2_alg».proof.Proof.K.OkOfRanges
import proofs.«404068_j7576322310165_2_alg».proof.Proof.Pre.Ranges

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rating

variable (m : (ℓ : Loc nD τ sig) → Buf (Elt F) ℓ) (ρ : Dev nD → PrngReg)

/-- The tables' words are in range when the launch's id vectors are. -/
theorem tbl_lt_0 (hu : InRange 1000000 (m (((0 : Dev nD) : Thread nD τ).loc main_arg0))) (i : Fin 4096) :
    (tbl m ρ 0 (ix1 i)).toNat < 1000000 := by
  rw [tbl_0]; exact hu.toNat_lt (by decide) i
theorem tbl_lt_1 (hv : InRange 100000 (m (((0 : Dev nD) : Thread nD τ).loc main_arg1))) (i : Fin 4096) :
    (tbl m ρ 1 (ix1 i)).toNat < 100000 := by
  rw [tbl_1]; exact hv.toNat_lt (by decide) i

/-- Ids in range give the gather's side condition. -/
theorem ok_of_inRange (hu : InRange 1000000 (m (((0 : Dev nD) : Thread nD τ).loc main_arg0)))
    (hv : InRange 100000 (m (((0 : Dev nD) : Thread nD τ).loc main_arg1))) : Ok m ρ := by
  refine ok_of_ranges (tbl m ρ) (fun (x : S4096.Idx) => ?_) (fun (x : S4096.Idx) => ?_)
  · obtain ⟨i, rfl⟩ : ∃ i : Fin 4096, x = ix1 i := ⟨x 0, eq_ix1 x⟩
    exact tbl_lt_0 m ρ hu i
  · obtain ⟨i, rfl⟩ : ∃ i : Fin 4096, x = ix1 i := ⟨x 0, eq_ix1 x⟩
    exact tbl_lt_1 m ρ hv i

end Cert.Kernel.Hand

end
-- ==== Proof.KI.Gather.lean ====
/-
  The first pallas_call: a row gather. At grid point t it copies row ids[t] of each of four tables (the two weight
  tables, one row of 64 entries; the two bias columns, one entry) into row t of four outputs. The row number is read
  from a prefetched index table, so everything here is stated for ANY admissible contents `a` of the tables and for
  any contents `V` of the buffers when the call is entered. The body stores each loaded block unchanged (a reshape
  to its own shape), so each output block after the body is a function of the one input block it copies.
-/
import proofs.«404068_j7576322310165_2_alg».proof.Proof.Gen.KernelIdeal.Launch
import proofs.«404068_j7576322310165_2_alg».proof.Proof.Gen.KernelIdeal.Skeleton
import proofs.«404068_j7576322310165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (a : (pcfg0 (F := F)).Adm)

/-! ## The blocks of the gather's windows -/

/-- Block of window `w` at grid point `t`, read off the window's array as the call finds it. For the four input
    windows the block's row is the table's word at `t`. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- An input window's staging buffer holds its block at every point, whether or not the point fetched it. -/
theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body stores -/

/-- The whole [1,1,64] block and the whole [1,1,1] block: the rectangles of every load and store of the body. -/
abbrev r64 : Rect S1x1x64 := Rect.unit (s := S1x1x64) ![0, 0, 0] S1x1x64.size inb_S1x1x64_S1x1x64_0_0_0
abbrev r1 : Rect S1x1x1 := Rect.unit (s := S1x1x1) ![0, 0, 0] S1x1x1.size inb_S1x1x1_S1x1x1_0_0_0

/-- The four output blocks after the body, each from the input block it copies. -/
def out0_4 (x0 : Vec F S1x1x64 .f32) : Vec F S1x1x64 .f32 := View.canon [⟨r64, k0_pay1 (View.ld x0 r64)⟩]
def out0_5 (x1 : Vec F S1x1x1 .f32) : Vec F S1x1x1 .f32 := View.canon [⟨r1, k0_pay2 (View.ld x1 r1)⟩]
def out0_6 (x2 : Vec F S1x1x64 .f32) : Vec F S1x1x64 .f32 := View.canon [⟨r64, k0_pay3 (View.ld x2 r64)⟩]
def out0_7 (x3 : Vec F S1x1x1 .f32) : Vec F S1x1x1 .f32 := View.canon [⟨r1, k0_pay4 (View.ld x3 r1)⟩]

/-- One store of the whole block covers it. -/
theorem cover64 (p0 : Vec F S1x1x64 .f32) (y : S1x1x64.Idx) :
    ∃ pc ∈ ([⟨r64, p0⟩] : List (View.Piece (Elt F) S1x1x64 .f32)), y ∈ pc.1.set :=
  View.cover_of_tiled [⟨r64, p0⟩] S1x1x64.size (by rfl) y
theorem cover1 (p0 : Vec F S1x1x1 .f32) (y : S1x1x1.Idx) :
    ∃ pc ∈ ([⟨r1, p0⟩] : List (View.Piece (Elt F) S1x1x1 .f32)), y ∈ pc.1.set :=
  View.cover_of_tiled [⟨r1, p0⟩] S1x1x1.size (by rfl) y

/-! ## The body's triple -/

set_option maxHeartbeats 1000000 in
/-- The copy body on whole staging buffers: the four inputs at contents `x0 … x3`, the four outputs at anything. It
    ends with the inputs untouched and each output at the copy of its input. It never reads the index tables. -/
theorem sound_kernel0 (c : Dev nD) (E : Set ℕ) (i : grid0.Coords)
    (arg1 : Memref sig .tc .smem S4096 .i32) (harg1 : arg1.IsWhole) (arg2 : Memref sig .tc .smem S4096 .i32) (harg2 : arg2.IsWhole)
    (arg3 : Memref sig .tc .vmem S1x1x64 .f32) (harg3 : arg3.IsWhole) (arg4 : Memref sig .tc .vmem S1x1x1 .f32) (harg4 : arg4.IsWhole)
    (arg5 : Memref sig .tc .vmem S1x1x64 .f32) (harg5 : arg5.IsWhole) (arg6 : Memref sig .tc .vmem S1x1x1 .f32) (harg6 : arg6.IsWhole)
    (arg7 : Memref sig .tc .vmem S1x1x64 .f32) (harg7 : arg7.IsWhole) (arg8 : Memref sig .tc .vmem S1x1x1 .f32) (harg8 : arg8.IsWhole)
    (arg9 : Memref sig .tc .vmem S1x1x64 .f32) (harg9 : arg9.IsWhole) (arg10 : Memref sig .tc .vmem S1x1x1 .f32) (harg10 : arg10.IsWhole)
    (x0 : Vec F S1x1x64 .f32) (x1 : Vec F S1x1x1 .f32) (x2 : Vec F S1x1x64 .f32) (x3 : Vec F S1x1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (out0_4 x0) ∗ owns (c : Thread nD τ) arg8 fullShare (out0_5 x1)
            ∗ owns (c : Thread nD τ) arg9 fullShare (out0_6 x2) ∗ owns (c : Thread nD τ) arg10 fullShare (out0_7 x3)) -∗ K ⟨⟩))
      ⊢ wp frame (wpE (defs₀ (F := F)) Variants.none c none) E
          (cc0__gather_kernel i arg1 harg1 arg2 harg2 arg3 harg3 arg4 harg4 arg5 harg5 arg6 harg6 arg7 harg7 arg8 harg8 arg9 harg9 arg10 harg10) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro; exact View.read_writes_eq_canon _ _ _ (cover64 _)
  isplitl [H5]
  · iexists _; isplitr
    swap; · iexact H5
    ipureintro; exact View.read_writes_eq_canon _ _ _ (cover1 _)
  isplitl [H6]
  · iexists _; isplitr
    swap; · iexact H6
    ipureintro; exact View.read_writes_eq_canon _ _ _ (cover64 _)
  iexists _; isplitr
  swap; · iexact H7
  ipureintro; exact View.read_writes_eq_canon _ _ _ (cover1 _)

/-! ## The proof data of the gather's pipeline -/

/-- The staging buffer each window is on at point `t`, and the body as the pipeline calls it there. -/
abbrev st0_0 (t : Fin (cfg0 a).N) := spec0_0.stage ((cfg0 a).slots t 0)
abbrev st0_1 (t : Fin (cfg0 a).N) := spec0_1.stage ((cfg0 a).slots t 1)
abbrev st0_2 (t : Fin (cfg0 a).N) := spec0_2.stage ((cfg0 a).slots t 2)
abbrev st0_3 (t : Fin (cfg0 a).N) := spec0_3.stage ((cfg0 a).slots t 3)
abbrev st0_4 (t : Fin (cfg0 a).N) := spec0_4.stage ((cfg0 a).slots t 4)
abbrev st0_5 (t : Fin (cfg0 a).N) := spec0_5.stage ((cfg0 a).slots t 5)
abbrev st0_6 (t : Fin (cfg0 a).N) := spec0_6.stage ((cfg0 a).slots t 6)
abbrev st0_7 (t : Fin (cfg0 a).N) := spec0_7.stage ((cfg0 a).slots t 7)

abbrev bodyAt0 (t : Fin (cfg0 a).N) : Prog (TpuEff nD τ sig (Elt F) Λ₀ .tc) PUnit :=
  cc0__gather_kernel (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))

/-- The pipeline's proof data on core `c`: arrays as the call finds them; after the body each input buffer at its
    block, each output buffer at the copy of the matching input block; the invariant holds the scoped rest, the
    generator register and the index tables whole (the body never touches them); nothing owed. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => out0_4 (iblk0 V a c 0 t)
    | ⟨5, _⟩ => out0_5 (iblk0 V a c 1 t)
    | ⟨6, _⟩ => out0_6 (iblk0 V a c 2 t)
    | ⟨7, _⟩ => out0_7 (iblk0 V a c 3 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]

theorem after0_0 (c : Dev nD) (t : Fin (cfg0 a).N) : (dat0 V a c).after 0 t = iblk0 V a c 0 t := by dsimp only [dat0]; try rfl
theorem after0_1 (c : Dev nD) (t : Fin (cfg0 a).N) : (dat0 V a c).after 1 t = iblk0 V a c 1 t := by dsimp only [dat0]; try rfl
theorem after0_2 (c : Dev nD) (t : Fin (cfg0 a).N) : (dat0 V a c).after 2 t = iblk0 V a c 2 t := by dsimp only [dat0]; try rfl
theorem after0_3 (c : Dev nD) (t : Fin (cfg0 a).N) : (dat0 V a c).after 3 t = iblk0 V a c 3 t := by dsimp only [dat0]; try rfl
theorem after0_4 (c : Dev nD) (t : Fin (cfg0 a).N) : (dat0 V a c).after 4 t = out0_4 (iblk0 V a c 0 t) := by dsimp only [dat0]; try rfl
theorem after0_5 (c : Dev nD) (t : Fin (cfg0 a).N) : (dat0 V a c).after 5 t = out0_5 (iblk0 V a c 1 t) := by dsimp only [dat0]; try rfl
theorem after0_6 (c : Dev nD) (t : Fin (cfg0 a).N) : (dat0 V a c).after 6 t = out0_6 (iblk0 V a c 2 t) := by dsimp only [dat0]; try rfl
theorem after0_7 (c : Dev nD) (t : Fin (cfg0 a).N) : (dat0 V a c).after 7 t = out0_7 (iblk0 V a c 3 t) := by dsimp only [dat0]; try rfl

theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d

/-! ## The body obligation -/

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d))
    ∗ (∃ d, owns (c : Thread nD τ) (st0_6 a t) fullShare ((dat0 V a c).before 6 t d))
    ∗ (∃ d, owns (c : Thread nD τ) (st0_7 a t) fullShare ((dat0 V a c).before 7 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t)
    ∗ owns (c : Thread nD τ) (st0_6 a t) fullShare ((dat0 V a c).after 6 t)
    ∗ owns (c : Thread nD τ) (st0_7 a t) fullShare ((dat0 V a c).after 7 t))

theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ _ _ _ _
    (iblk0 V a c 0 t) (iblk0 V a c 1 t) (iblk0 V a c 2 t) (iblk0 V a c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V a c) (defs₀ (F := F)) Variants.none () Set.univ := fun t => by
  rw [bigSep_W0, bigSep_W0]
  exact sound_body0 V a c t

end Cert.KernelIdeal.Hand

end
-- ==== Proof.KI.Matmul.lean ====
/-
  The second pallas_call: on a 4 x 4 grid, point (i, j) computes the [1024, 1024] block of the rating matrix from
  rows block i of the gathered user weights, rows block j of the gathered item weights, the matching user-bias column
  block, item-bias row block and the single global bias: one product of the two [1024, 64] blocks contracted over the
  64 latent entries, plus the three biases. Stated for any contents `V` of the buffers when the call is entered.
-/
import proofs.«404068_j7576322310165_2_alg».proof.Proof.Gen.KernelIdeal.Launch
import proofs.«404068_j7576322310165_2_alg».proof.Proof.Gen.KernelIdeal.Skeleton
import proofs.«404068_j7576322310165_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks of the product's windows -/

/-- Block of window `w` at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole-block rectangles of the body's loads and its one store. -/
abbrev q0 : Rect S1024x64 := Rect.unit (s := S1024x64) ![0, 0] S1024x64.size inb_S1024x64_S1024x64_0_0
abbrev q2 : Rect S1024x1 := Rect.unit (s := S1024x1) ![0, 0] S1024x1.size inb_S1024x1_S1024x1_0_0
abbrev q3 : Rect S1x1024 := Rect.unit (s := S1x1024) ![0, 0] S1x1024.size inb_S1x1024_S1x1024_0_0
abbrev q4 : Rect S1x1 := Rect.unit (s := S1x1) ![0, 0] S1x1.size inb_S1x1_S1x1_0_0
abbrev q5 : Rect S1024x1024 := Rect.unit (s := S1024x1024) ![0, 0] S1024x1024.size inb_S1024x1024_S1024x1024_0_0

/-- The output block after the body: the product of the two weight blocks plus the three biases, of the five input blocks. -/
def out1_5 (x0 : Vec F S1024x64 .f32) (x1 : Vec F S1024x64 .f32) (x2 : Vec F S1024x1 .f32) (x3 : Vec F S1x1024 .f32) (x4 : Vec F S1x1 .f32) :
    Vec F S1024x1024 .f32 :=
  View.canon [⟨q5, k1_pay1 (View.ld x0 q0) (View.ld x1 q0) (View.ld x2 q2) (View.ld x3 q3) (View.ld x4 q4)⟩]

/-- One store of the whole block covers it. -/
theorem cover1_5 (p0 : Vec F S1024x1024 .f32) (y : S1024x1024.Idx) :
    ∃ pc ∈ ([⟨q5, p0⟩] : List (View.Piece (Elt F) S1024x1024 .f32)), y ∈ pc.1.set :=
  View.cover_of_tiled [⟨q5, p0⟩] S1024x1024.size (by rfl) y

/-! ## The body's triple -/

set_option maxHeartbeats 1000000 in
/-- The body on whole staging buffers: the five inputs at `x0 … x4`, the output at anything. It ends with the inputs
    untouched and the output at `out1_5` of them. -/
theorem sound_kernel1 (c : Dev nD) (E : Set ℕ) (i : grid1.Coords)
    (arg2 : Memref sig .tc .vmem S1024x64 .f32) (harg2 : arg2.IsWhole) (arg3 : Memref sig .tc .vmem S1024x64 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1x1 .f32) (harg6 : arg6.IsWhole) (arg7 : Memref sig .tc .vmem S1024x1024 .f32) (harg7 : arg7.IsWhole)
    (x0 : Vec F S1024x64 .f32) (x1 : Vec F S1024x64 .f32) (x2 : Vec F S1024x1 .f32) (x3 : Vec F S1x1024 .f32) (x4 : Vec F S1x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__mm_kernel i arg2 harg2 arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro; exact View.read_writes_eq_canon _ _ _ (cover1_5 _)

/-! ## The proof data of the product's pipeline -/

/-- Arrays as the call finds them; after the body each input buffer at its block and the output buffer at `out1_5`
    of the five input blocks; the invariant is the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as four segments: reshapes of the four tables to a unit middle axis; the row gather; reshapes of
  its four outputs back to rank 2 (and the item-bias column to a row, the global bias to [1,1]); the blocked product.
  The buffers' contents at the five boundaries are named `W0 … W4`, each from the one before: a host stretch applies
  its operations, a call replaces its windows' arrays by what its pipeline leaves. The index tables are read where the
  gather is entered; the run holds when every table-indexed block lies inside its array (`Ok`). Its post names
  every unscoped buffer's final contents (`W4`), from which both the unchanged arguments and the result are read.
-/
import proofs.«404068_j7576322310165_2_alg».proof.Proof.KI.Gather
import proofs.«404068_j7576322310165_2_alg».proof.Proof.KI.Matmul
import proofs.«404068_j7576322310165_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Contents at the boundaries before the gather, and the tables -/

/-- At launch. -/
abbrev W0 : Dev nD → Valuation τ sig (Elt F) := fun c b => (s₀ m ρ).mem ((c : Dev nD), b)
/-- After the first reshapes: where the gather is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- The index tables' contents where the gather is entered (there is one device). -/
def tbl : pre0.Contents (Elt F) := fun j => V1 m ρ (0 : Dev nD) (pre0.ref j)
theorem V1_pre (c : Dev nD) (j : Fin 2) : V1 m ρ c (pre0.ref j) = tbl m ρ j := by
  obtain rfl : c = 0 := Subsingleton.elim _ _; rfl
/-- Every table-indexed block of the gather lies inside its array. -/
abbrev Ok : Prop := ok0 (F := F) (tbl m ρ)

variable (hO : Ok m ρ)

/-- The tables as admissible contents of the gather's pipeline. -/
abbrev a0 : (pcfg0 (F := F)).Adm := ⟨tbl m ρ, hO⟩

/-! ## Contents after the gather and after the product -/

/-- After the gather: its eight arrays at what the pipeline leaves, everything else as entered. -/
def W2 (c : Dev nD) : Valuation τ sig (Elt F) :=
  Pipeline.withArrays spec0 c (W1 m ρ c) fun w => (dat0 (V1 m ρ) (a0 m ρ hO) c).arrAt w (cfg0 (a0 m ρ hO)).N
theorem W2_arr (c : Dev nD) (w : Fin 8) :
    W2 m ρ hO c (Proc.devRef .tc (Pipeline.arrRef spec0 w)) = (dat0 (V1 m ρ) (a0 m ρ hO) c).arrAt w (cfg0 (a0 m ρ hO)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ hO c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ hO c b
theorem hF0 (c : Dev nD) (w : Fin 8) :
    (dat0 (V1 m ρ) (a0 m ρ hO) c).arrAt w (cfg0 (a0 m ρ hO)).N = V2 m ρ hO c (Pipeline.arrRef spec0 w) :=
  (W2_arr m ρ hO c w).symm
theorem hrest0 (c : Dev nD) : ∀ b, b ∉ Finset.univ.image (Pipeline.arrRef spec0) → V2 m ρ hO c b = V1 m ρ c b :=
  fun b hb => W2_of_ne m ρ hO c b fun w e => hb (Finset.mem_image.mpr ⟨w, Finset.mem_univ _, e⟩)

/-- After the second reshapes: where the product is entered. -/
abbrev W3 : Dev nD → Valuation τ sig (Elt F) := fun c => StableHlo.after hostOps1 (W2 m ρ hO c)
abbrev V3 : (c : Dev nD) → (b : Ref sig .tc) → Buf (Elt F) ((c : Thread nD τ).loc b) := fun c b => W3 m ρ hO c b

/-- After the product: its six arrays at what the pipeline leaves, everything else as entered. -/
def W4 (c : Dev nD) : Valuation τ sig (Elt F) :=
  Pipeline.withArrays spec1 c (W3 m ρ hO c) fun w => (dat1 (V3 m ρ hO) c).arrAt w cfg1.N
theorem W4_arr (c : Dev nD) (w : Fin cfg1.W) :
    W4 m ρ hO c (Proc.devRef .tc (Pipeline.arrRef spec1 w)) = (dat1 (V3 m ρ hO) c).arrAt w cfg1.N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ hO c (Proc.devRef .tc b) = W3 m ρ hO c (Proc.devRef .tc b) := by
  unfold W4; exact Pipeline.withArrays_of_ne spec1 c _ _ b hb
abbrev V4 : (c : Dev nD) → (b : Ref sig .tc) → Buf (Elt F) ((c : Thread nD τ).loc b) := fun c b => W4 m ρ hO c b
theorem hF1 (c : Dev nD) (w : Fin cfg1.W) : (dat1 (V3 m ρ hO) c).arrAt w cfg1.N = V4 m ρ hO c (Pipeline.arrRef spec1 w) :=
  (W4_arr m ρ hO c w).symm
theorem hrest1 (c : Dev nD) : ∀ b, b ∉ Finset.univ.image (Pipeline.arrRef spec1) → V4 m ρ hO c b = V3 m ρ hO c b :=
  fun b hb => W4_of_ne m ρ hO c b fun w e => hb (Finset.mem_image.mpr ⟨w, Finset.mem_univ _, e⟩)

/-! ## The proof data family and the thread state -/

/-- Admissible table contents per pipeline: the gather's at the tables read, the product has none. -/
def adm : (p : Fin 2) → (pcfgs (F := F) p).Adm
  | ⟨0, _⟩ => a0 m ρ hO
  | ⟨1, _⟩ => cfg1.toPCfg_adm

/-- Each pipeline's proof data at the contents its call is entered from. -/
def pdats : (p : Fin 2) → (c : Dev nD) → Dat τ (Elt F) Unit ℕ (UR sig nD τ) ℕ (Pipeline.pin (pcfgs (F := F)) (adm m ρ hO) p) c
  | ⟨0, _⟩ => fun c => dat0 (V1 m ρ) (a0 m ρ hO) c
  | ⟨1, _⟩ => fun c => dat1 (V3 m ρ hO) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ hO c) ∗ ∃ r, prngReg c r)

/-- The unscoped buffers that are no array of the gather: the two index tables, and the rest. -/
theorem rest0_split (c : Dev nD) :
    (Pipeline.unscopedRest (Ix := Unit) (Name := ℕ) (U := UR sig nD τ) (Lvl := ℕ) spec0 c (V1 m ρ c) : sProp 𝕄)
      = iprop(Pipeline.prefHeld pre0 c (fun _ => fullShare) (tbl m ρ)
          ∗ Pipeline.unscopedRestP (Ix := Unit) (Name := ℕ) (U := UR sig nD τ) (Lvl := ℕ) pre0 spec0 c (V1 m ρ c)) := by
  rw [Pipeline.unscopedRest_split (win := spec0) (pre := pre0) preFacts0 c (V1 m ρ c),
    show (fun k => V1 m ρ c (pre0.ref k)) = tbl m ρ from funext (V1_pre m ρ c)]

/-! ## The two calls as segments -/

set_option backward.isDefEq.respectTransparency.types false in
/-- The gather: entered from every unscoped buffer at `W1`, left at `W2`. Its arrays and the two tables are split
    out of the unscoped buffers; the tables and the generator register go into the invariant and come back. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) (a0 m ρ hO) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ hO c) ∗ R c)
  X c := iprop(∃ r, prngReg c r)
  Y c := iprop((∃ r, prngReg c r) ∗ Pipeline.prefHeld pre0 c (fun _ => fullShare) (tbl m ρ))
  Z c := Pipeline.unscopedRestP (Ix := Unit) (Name := ℕ) (U := UR sig nD τ) (Lvl := ℕ) pre0 spec0 c (V1 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    ihave H' := (Entails.of_eq (rest0_split m ρ c)) $$ Hrest
    icases H' with ⟨Hpf, HR⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HR
  hin c := by
    rw [show (pdats m ρ hO 0 c).Φ 0 = iprop(Pipeline.ΦA spec0 c ∗ Pipeline.prefHeld pre0 c (fun _ => fullShare) (tbl m ρ)) from rfl]
    unfold Pipeline.ΦA
    iintro ⟨Hp, Hpf, Hr⟩
    isplitl [Hr Hp]
    · isplitl [Hr]; · iexact Hr
      iexact Hp
    iexact Hpf
  hout c := by
    rw [Pipeline.ownSems0_none,
      show (pdats m ρ hO 0 c).Φ (Fin.last _) = iprop(Pipeline.ΦA spec0 c ∗ Pipeline.prefHeld pre0 c (fun _ => fullShare) (tbl m ρ)) from rfl]
    unfold Pipeline.ΦA
    iintro ⟨⟨Hr, Hp⟩, Hpf⟩
    isplitl [Hp Hpf]
    · isplitl [Hp]; · iexact Hp
      iexact Hpf
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V1 m ρ c) (V2 m ρ hO c) ((pdats m ρ hO 0 c).arrAt · (cfg0 (a0 m ρ hO)).N) (hF0 m ρ hO c) (hrest0 m ρ hO c)
    rw [Pipeline.unscopedBufs_held] at hjoin
    iintro ⟨Ha, HO, ⟨HY, Hpf⟩, HR⟩
    ihave Hrest := (Entails.of_eq (rest0_split m ρ c).symm) $$ [Hpf HR]
    · isplitl [Hpf]; · iexact Hpf
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product: entered from every unscoped buffer at `W3`, left at `W4`. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ hO) c).loose
  hwaits := Pipeline.hwaits_of_owed_zero _ _ _ _ L lv 1 fun _ _ => rfl
  pre c := iprop(StableHlo.held (c : Thread nD τ) (Pipeline.ucRefs τ sig) (W3 m ρ hO c) ∗ R c)
  post c := iprop(Tₙ m ρ hO c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V3 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ hO 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V3 m ρ hO c) (V4 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) (adm m ρ hO) (pdats m ρ hO) () defs₀ 𝒱₀ L lv) :=
  [ .host (hseg hostOps0 hostOps0_sub hostOps0_fresh (W0 m ρ)),
    .region (reg0 m ρ hO),
    .host (hseg hostOps1 hostOps1_sub hostOps1_fresh (W2 m ρ hO)),
    .region (reg1 m ρ hO) ]

theorem main_run (c : Dev nD) : main (F := F) c = Pipeline.Seg.run (segs m ρ hO) := (main_chain c).trans (by chain_rfl)

set_option backward.isDefEq.respectTransparency.types false in
/-- Under `Ok`: every weakly fair execution of the program from memory `m` with zero counters terminates without a
    fault, and every unscoped buffer of every core ends at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO)))
      (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO)))
              (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO)))
              (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ hO c) s')
      isplitl [Hh] <;> iassumption)
    (hQ := fun s h c => h c)

end Cert.KernelIdeal.Hand

end
-- ==== Proof.KI.Frame.lean ====
/-
  The frame: no host operation writes an argument and no argument is a window's array of either call, so each argument's
  buffer ends as launched; with the run this is the program's frame under `Ok`. The result array is the product's
  output window's array after its last grid point.
-/
import proofs.«404068_j7576322310165_2_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg) (hO : Ok m ρ)

/-- The index tables where the gather is entered are the launch's: the first reshapes do not write them. -/
theorem tbl_0 : tbl m ρ 0 = m (((0 : Dev nD) : Thread nD τ).loc main_arg0) := by
  unfold tbl
  show StableHlo.after hostOps0 (fun b => m ((0 : Dev nD), b)) (Proc.devRef .tc main_arg0) = _
  after_results
theorem tbl_1 : tbl m ρ 1 = m (((0 : Dev nD) : Thread nD τ).loc main_arg1) := by
  unfold tbl
  show StableHlo.after hostOps0 (fun b => m ((0 : Dev nD), b)) (Proc.devRef .tc main_arg1) = _
  after_results

/-- A buffer that no host operation writes and that is no array of either call ends as launched. -/
theorem W4_kept (c : Dev nD) (r : Ref sig .tc) (h0 : r ∉ hostOps0_W) (h1 : r ∉ hostOps1_W)
    (hs0 : ∀ w, Pipeline.arrRef spec0 w ≠ r) (hs1 : ∀ w, Pipeline.arrRef spec1 w ≠ r) :
    W4 m ρ hO c (Proc.devRef .tc r) = m ((c : Thread nD τ).loc r) :=
  (W4_of_ne m ρ hO c r hs1).trans <|
    (StableHlo.after_of_writes_sub hostOps1 _ hostOps1_writes h1).trans <|
      (W2_of_ne m ρ hO c r hs0).trans <|
        (StableHlo.after_of_writes_sub hostOps0 _ hostOps0_writes h0).trans rfl

/-- The result array at the end is what the product's pipeline leaves in its output window's array. -/
theorem W4_result (c : Dev nD) : W4 m ρ hO c (Proc.devRef .tc main_v11) = (dat1 (V3 m ρ hO) c).arrAt 5 cfg1.N :=
  W4_arr m ρ hO c 5

include hO in
/-- The program's frame under `Ok`: it runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_kept m ρ hO c main_arg0 (by decide) (by decide) (by decide) (by decide)),
     (h c _ (mem_uc main_arg1 (by decide))).trans (W4_kept m ρ hO c main_arg1 (by decide) (by decide) (by decide) (by decide)),
     (h c _ (mem_uc main_arg2 (by decide))).trans (W4_kept m ρ hO c main_arg2 (by decide) (by decide) (by decide) (by decide)),
     (h c _ (mem_uc main_arg3 (by decide))).trans (W4_kept m ρ hO c main_arg3 (by decide) (by decide) (by decide) (by decide)),
     (h c _ (mem_uc main_arg4 (by decide))).trans (W4_kept m ρ hO c main_arg4 (by decide) (by decide) (by decide) (by decide)),
     (h c _ (mem_uc main_arg5 (by decide))).trans (W4_kept m ρ hO c main_arg5 (by decide) (by decide) (by decide) (by decide)),
     (h c _ (mem_uc main_arg6 (by decide))).trans (W4_kept m ρ hO c main_arg6 (by decide) (by decide) (by decide) (by decide))⟩)
    (run_all m ρ hO)

include hO in
/-- The same run, naming the result array's final contents as well. -/
theorem run_result : θ_run defs (onTc (τ := τ) (main (F := F))) ⟨m, fun _ => 0, ρ⟩ (fun r => ∀ c : Dev nD,
      r.2.mem ((c.tc : Thread nD τ).loc main_v11) = W4 m ρ hO c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v11 (by decide)),
     (h c _ (mem_uc main_arg0 (by decide))).trans (W4_kept m ρ hO c main_arg0 (by decide) (by decide) (by decide) (by decide)),
     (h c _ (mem_uc main_arg1 (by decide))).trans (W4_kept m ρ hO c main_arg1 (by decide) (by decide) (by decide) (by decide)),
     (h c _ (mem_uc main_arg2 (by decide))).trans (W4_kept m ρ hO c main_arg2 (by decide) (by decide) (by decide) (by decide)),
     (h c _ (mem_uc main_arg3 (by decide))).trans (W4_kept m ρ hO c main_arg3 (by decide) (by decide) (by decide) (by decide)),
     (h c _ (mem_uc main_arg4 (by decide))).trans (W4_kept m ρ hO c main_arg4 (by decide) (by decide) (by decide) (by decide)),
     (h c _ (mem_uc main_arg5 (by decide))).trans (W4_kept m ρ hO c main_arg5 (by decide) (by decide) (by decide) (by decide)),
     (h c _ (mem_uc main_arg6 (by decide))).trans (W4_kept m ρ hO c main_arg6 (by decide) (by decide) (by decide) (by decide))⟩)
    (run_all m ρ hO)

end Cert.KernelIdeal.Hand

end
-- ==== Proof.KI.OkOfRanges.lean ====
/-
  The gather's side condition from the index ranges: a user id below 1000000 names a row block of the [1000000, 1, 64]
  and [1000000, 1, 1] tables, an item id below 100000 a row block of the [100000, 1, 64] and [100000, 1, 1] tables; the
  blocks have one row, so block index and row index coincide.
-/
import proofs.«404068_j7576322310165_2_alg».proof.Proof.Gen.KernelIdeal.Launch
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- One row block `[w, 0, 0]` of extent `[1, 1, m]` lies inside an `[n, 1, m]` array as soon as `w < n`: on the
    row axis `(w + 1) · 1 ≤ n`, on the other two the block is the whole axis. -/
private theorem row_block_inside {n m w : Nat} (hw : w < n) (a : Fin 3) :
    ((![w, 0, 0] : Fin 3 → Nat) a + 1) * (⟨3, ![1, 1, m]⟩ : Shape).size a ≤ (⟨3, ![n, 1, m]⟩ : Shape).size a := by
  match a with
  | ⟨0, _⟩ => show (w + 1) * 1 ≤ n; omega
  | ⟨1, _⟩ => show (0 + 1) * 1 ≤ 1; omega
  | ⟨2, _⟩ => show (0 + 1) * m ≤ m; omega

/-- For ANY contents `pf` of the two index tables whose words are in range, every table-indexed block is inside its array. -/
theorem ok_of_ranges (pf : pre0.Contents (Elt F))
    (h0 : ∀ x, (pf 0 x).toNat < 1000000) (h1 : ∀ x, (pf 1 x).toNat < 100000) : ok0 (F := F) pf := by
  -- each index map returns `[w, 0, 0]` for the word `w` it reads from its table; f32 is a word-wide type
  refine ⟨fun i => ⟨fun a => ?_, Or.inl rfl⟩, fun i => ⟨fun a => ?_, Or.inl rfl⟩,
    fun i => ⟨fun a => ?_, Or.inl rfl⟩, fun i => ⟨fun a => ?_, Or.inl rfl⟩⟩
  · exact row_block_inside (h0 _) a
  · exact row_block_inside (h0 _) a
  · exact row_block_inside (h1 _) a
  · exact row_block_inside (h1 _) a

end Cert.KernelIdeal.Hand

end
-- ==== Proof.KI.OkOfPre.lean ====
/-
  From the precondition to the gather's side condition: the precondition bounds every id, the index tables where the
  gather is entered are the launch's id vectors, and an id in range names a block inside its table.
-/
import proofs.«404068_j7576322310165_2_alg».proof.Proof.KI.Frame
import proofs.«404068_j7576322310165_2_alg».proof.Proof.KI.OkOfRanges
import proofs.«404068_j7576322310165_2_alg».proof.Proof.Pre.Ranges

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Rating

variable (m : (ℓ : Loc nD τ sig) → Buf (Elt F) ℓ) (ρ : Dev nD → PrngReg)

/-- The tables' words are in range when the launch's id vectors are. -/
theorem tbl_lt_0 (hu : InRange 1000000 (m (((0 : Dev nD) : Thread nD τ).loc main_arg0))) (i : Fin 4096) :
    (tbl m ρ 0 (ix1 i)).toNat < 1000000 := by
  rw [tbl_0]; exact hu.toNat_lt (by decide) i
theorem tbl_lt_1 (hv : InRange 100000 (m (((0 : Dev nD) : Thread nD τ).loc main_arg1))) (i : Fin 4096) :
    (tbl m ρ 1 (ix1 i)).toNat < 100000 := by
  rw [tbl_1]; exact hv.toNat_lt (by decide) i

/-- Ids in range give the gather's side condition. -/
theorem ok_of_inRange (hu : InRange 1000000 (m (((0 : Dev nD) : Thread nD τ).loc main_arg0)))
    (hv : InRange 100000 (m (((0 : Dev nD) : Thread nD τ).loc main_arg1))) : Ok m ρ := by
  refine ok_of_ranges (tbl m ρ) (fun (x : S4096.Idx) => ?_) (fun (x : S4096.Idx) => ?_)
  · obtain ⟨i, rfl⟩ : ∃ i : Fin 4096, x = ix1 i := ⟨x 0, eq_ix1 x⟩
    exact tbl_lt_0 m ρ hu i
  · obtain ⟨i, rfl⟩ : ∃ i : Fin 4096, x = ix1 i := ⟨x 0, eq_ix1 x⟩
    exact tbl_lt_1 m ρ hv i

end Cert.KernelIdeal.Hand

end
-- ==== Proof.KI.ValGather.lean ====
/-
  What the gather leaves: row `i` of each of its four outputs is the row of the matching table that batch entry `i` names.

  Output window w+4 copies input window w. At grid point t the input window's block is the one row of its table whose
  number is the word at position t of the index vector (the first index vector for the two user tables, the second for
  the two item tables); the output window's block is row t of its array. Blocks have one row, so a block's index on
  the row axis is a row number. Every point writes its output block back, and the 4096 output blocks tile the output
  array, so the array ends holding, at row i, row ids[i] of the table. Every structural fact below is stated for any
  admissible contents of the index vectors and any contents of the buffers; the run's own are put in at the very end.
-/
import proofs.«404068_j7576322310165_2_alg».proof.Proof.KI.Run
import proofs.«404068_j7576322310165_2_alg».proof.Proof.Val.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

namespace GatherVal

variable (V : (c : Dev nD) → (b : Ref sig .tc) → Buf (Elt F) ((c : Thread nD τ).loc b))
variable (a : (pcfg0 (F := F)).Adm)

/-! ## The grid and the index maps -/

/-- The grid has one axis: a point's coordinate is its number. -/
theorem crd0 (t : Fin grid0.N) : (grid0.coords t 0).val = t.val := by
  have hN : grid0.N = 4096 := N_0
  have ht := t.isLt
  have hs : grid0.stride 0 = 1 := by decide
  show t.val / grid0.stride 0 % 4096 = t.val
  rw [hs]; omega

theorem hz3 : (![0, 0, 0] : Fin 3 → Nat) = fun _ => 0 := funext fun a => by fin_cases a <;> rfl

/-- Each window's block index at a point is its index map at the point's coordinate, the input windows' at the
    index vectors' contents. -/
theorem idx0 (t : Fin (cfg0 a).N) : ((cfg0 a).win 0).index t = cc0_transform_0 k0_off1_inb numel1_S1 a.1 (grid0.coords t) := rfl
theorem idx1 (t : Fin (cfg0 a).N) : ((cfg0 a).win 1).index t = cc0_transform_1 k0_off1_inb numel1_S1 a.1 (grid0.coords t) := rfl
theorem idx2 (t : Fin (cfg0 a).N) : ((cfg0 a).win 2).index t = cc0_transform_2 k0_off1_inb numel1_S1 a.1 (grid0.coords t) := rfl
theorem idx3 (t : Fin (cfg0 a).N) : ((cfg0 a).win 3).index t = cc0_transform_3 k0_off1_inb numel1_S1 a.1 (grid0.coords t) := rfl
theorem idx4 (t : Fin (cfg0 a).N) : ((cfg0 a).win 4).index t = cc0_transform_4 (grid0.coords t) := rfl
theorem idx5 (t : Fin (cfg0 a).N) : ((cfg0 a).win 5).index t = cc0_transform_5 (grid0.coords t) := rfl
theorem idx6 (t : Fin (cfg0 a).N) : ((cfg0 a).win 6).index t = cc0_transform_6 (grid0.coords t) := rfl
theorem idx7 (t : Fin (cfg0 a).N) : ((cfg0 a).win 7).index t = cc0_transform_7 (grid0.coords t) := rfl

/-- The word an input window's index map loads at coordinate `k`: entry `k` of the first index vector, -/
theorem word0 (pf : pre0.Contents (Elt F)) (i : grid0.Coords) (k : Fin 4096) (hk : (i 0).val = k.val) :
    pf.at 0 (Rect.unit (s := S4096) ![BitVec.toNat (Scalar.indexCast (BitVec.ofNat 32 (i 0).val))] S1.size (k0_off1_inb i)) numel1_S1
      = pf 0 (ix1 k) := by
  have h : (i 0).val < 4096 := (i 0).isLt
  refine congrArg (pf 0) (funext fun d => Fin.ext ?_)
  match d with
  | ⟨0, _⟩ =>
    show (BitVec.ofNat 32 (i 0).val).toNat + 1 * 0 = k.val
    rw [BitVec.toNat_ofNat, Nat.mod_eq_of_lt (by omega)]; omega
/-- or of the second. -/
theorem word1 (pf : pre0.Contents (Elt F)) (i : grid0.Coords) (k : Fin 4096) (hk : (i 0).val = k.val) :
    pf.at 1 (Rect.unit (s := S4096) ![BitVec.toNat (Scalar.indexCast (BitVec.ofNat 32 (i 0).val))] S1.size (k0_off1_inb i)) numel1_S1
      = pf 1 (ix1 k) := by
  have h : (i 0).val < 4096 := (i 0).isLt
  refine congrArg (pf 1) (funext fun d => Fin.ext ?_)
  match d with
  | ⟨0, _⟩ =>
    show (BitVec.ofNat 32 (i 0).val).toNat + 1 * 0 = k.val
    rw [BitVec.toNat_ofNat, Nat.mod_eq_of_lt (by omega)]; omega

/-- An input window's block index at coordinate `k`: row ids[k], and 0 on the other two axes. -/
theorem tr0 (pf : pre0.Contents (Elt F)) (i : grid0.Coords) (k : Fin 4096) (hk : (i 0).val = k.val) :
    cc0_transform_0 k0_off1_inb numel1_S1 pf i = ![(pf 0 (ix1 k)).toNat, 0, 0] := by
  unfold cc0_transform_0
  dsimp only
  rw [word0 pf i k hk]; rfl
theorem tr1 (pf : pre0.Contents (Elt F)) (i : grid0.Coords) (k : Fin 4096) (hk : (i 0).val = k.val) :
    cc0_transform_1 k0_off1_inb numel1_S1 pf i = ![(pf 0 (ix1 k)).toNat, 0, 0] := by
  unfold cc0_transform_1
  dsimp only
  rw [word0 pf i k hk]; rfl
theorem tr2 (pf : pre0.Contents (Elt F)) (i : grid0.Coords) (k : Fin 4096) (hk : (i 0).val = k.val) :
    cc0_transform_2 k0_off1_inb numel1_S1 pf i = ![(pf 1 (ix1 k)).toNat, 0, 0] := by
  unfold cc0_transform_2
  dsimp only
  rw [word1 pf i k hk]; rfl
theorem tr3 (pf : pre0.Contents (Elt F)) (i : grid0.Coords) (k : Fin 4096) (hk : (i 0).val = k.val) :
    cc0_transform_3 k0_off1_inb numel1_S1 pf i = ![(pf 1 (ix1 k)).toNat, 0, 0] := by
  unfold cc0_transform_3
  dsimp only
  rw [word1 pf i k hk]; rfl

/-- An output window's block index at a coordinate: that row, and 0 on the other two axes. -/
theorem tr4 (i : grid0.Coords) : cc0_transform_4 i = ![(i 0).val, 0, 0] := by
  have h : (i 0).val < 4096 := (i 0).isLt
  unfold cc0_transform_4
  dsimp only
  rw [BitVec.toNat_ofNat, Nat.mod_eq_of_lt (by omega)]
  rfl
theorem tr5 (i : grid0.Coords) : cc0_transform_5 i = ![(i 0).val, 0, 0] := by
  have h : (i 0).val < 4096 := (i 0).isLt
  unfold cc0_transform_5
  dsimp only
  rw [BitVec.toNat_ofNat, Nat.mod_eq_of_lt (by omega)]
  rfl
theorem tr6 (i : grid0.Coords) : cc0_transform_6 i = ![(i 0).val, 0, 0] := by
  have h : (i 0).val < 4096 := (i 0).isLt
  unfold cc0_transform_6
  dsimp only
  rw [BitVec.toNat_ofNat, Nat.mod_eq_of_lt (by omega)]
  rfl
theorem tr7 (i : grid0.Coords) : cc0_transform_7 i = ![(i 0).val, 0, 0] := by
  have h : (i 0).val < 4096 := (i 0).isLt
  unfold cc0_transform_7
  dsimp only
  rw [BitVec.toNat_ofNat, Nat.mod_eq_of_lt (by omega)]
  rfl

/-! ## The body copies each input block -/

theorem out0_4_eq (x0 : Vec F S1x1x64 .f32) : out0_4 x0 = x0 := by
  unfold out0_4
  rw [View.canon_unit_zero hz3, View.ld_unit_zero (S := S1x1x64) hz3]
  unfold k0_pay1
  exact shapeCast_self _ _
theorem out0_5_eq (x1 : Vec F S1x1x1 .f32) : out0_5 x1 = x1 := by
  unfold out0_5
  rw [View.canon_unit_zero hz3, View.ld_unit_zero (S := S1x1x1) hz3]
  unfold k0_pay2
  exact shapeCast_self _ _
theorem out0_6_eq (x2 : Vec F S1x1x64 .f32) : out0_6 x2 = x2 := by
  unfold out0_6
  rw [View.canon_unit_zero hz3, View.ld_unit_zero (S := S1x1x64) hz3]
  unfold k0_pay3
  exact shapeCast_self _ _
theorem out0_7_eq (x3 : Vec F S1x1x1 .f32) : out0_7 x3 = x3 := by
  unfold out0_7
  rw [View.canon_unit_zero hz3, View.ld_unit_zero (S := S1x1x1) hz3]
  unfold k0_pay4
  exact shapeCast_self _ _

/-! ## First output: the user weight rows -/

/-- What the first output ends holding: at row `z 0`, row ids[z 0] of the user weight table. -/
def G4 (ids : (⟨1, ![4096]⟩ : Shape).Idx → BitVec 32) (hu : ∀ i : Fin 4096, (ids (ix1 i)).toNat < 1000000) (c : Dev nD) :
    S4096x1x64.Idx → Elt F .f32 :=
  fun z => V c main_v0 (ix3 (Cert.Rating.rowOf 1000000 ids hu ⟨(z 0).val, (z 0).isLt⟩) (0 : Fin 1) (⟨(z 2).val, (z 2).isLt⟩ : Fin 64))

theorem G4_at (ids : (⟨1, ![4096]⟩ : Shape).Idx → BitVec 32) (hu : ∀ i : Fin 4096, (ids (ix1 i)).toNat < 1000000) (c : Dev nD)
    (i : Fin 4096) (d : Fin 64) :
    G4 V ids hu c (ix3 i (0 : Fin 1) d) = V c main_v0 (ix3 (Cert.Rating.rowOf 1000000 ids hu i) (0 : Fin 1) d) := rfl

/-- The input block at point `t` is row ids[t] of the table: block index × 1 + the coordinate inside the block. -/
theorem iblk0_0_apply (ids : (⟨1, ![4096]⟩ : Shape).Idx → BitVec 32) (hpf : a.1 0 = ids)
    (hu : ∀ i : Fin 4096, (ids (ix1 i)).toNat < 1000000)
    (c : Dev nD) (t : Fin (cfg0 a).N) (k : Fin 4096) (q : Fin 64) (y : S1x1x64.Idx) (hk : k.val = t.val) (hq : q.val = (y 2).val) :
    iblk0 V a c 0 t y = V c main_v0 (ix3 (Cert.Rating.rowOf 1000000 ids hu k) (0 : Fin 1) q) := by
  have hidx : ((cfg0 a).win 0).index t = ![(ids (ix1 k)).toNat, 0, 0] := by
    rw [idx0, tr0 a.1 (grid0.coords t) k ((crd0 t).trans hk.symm), hpf]
  have y0 : (y 0).val < 1 := (y 0).isLt
  have y1 : (y 1).val < 1 := (y 1).isLt
  unfold iblk0
  show V c main_v0 ((((cfg0 a).win 0).blk t).view.emb y) = _
  refine congrArg (V c main_v0) (funext fun d => Fin.ext ?_)
  match d with
  | ⟨0, h0⟩ =>
    refine (((cfg0 a).win 0).rect_emb_val t y ⟨0, h0⟩).trans ?_
    rw [hidx]
    show (ids (ix1 k)).toNat * 1 + (y 0).val = (ids (ix1 k)).toNat
    omega
  | ⟨1, h1⟩ =>
    refine (((cfg0 a).win 0).rect_emb_val t y ⟨1, h1⟩).trans ?_
    rw [hidx]
    show 0 * 1 + (y 1).val = 0
    omega
  | ⟨2, h2⟩ =>
    refine (((cfg0 a).win 0).rect_emb_val t y ⟨2, h2⟩).trans ?_
    rw [hidx]
    show 0 * 64 + (y 2).val = q.val
    omega

/-- The output's block index changes at every point, so every point writes its block back. -/
theorem flush4 (t : Fin (cfg0 a).N) : ((cfg0 a).win 4).flush t = true := by
  have hN : (cfg0 a).grid.N = 4096 := N_0
  have ht : t.val < 4096 := lt_of_lt_of_eq t.isLt N_0
  unfold Window.flush
  rw [show ((cfg0 a).win 4).isOut = true from rfl, Bool.true_and, Bool.or_eq_true, decide_eq_true_eq, decide_eq_true_eq]
  by_cases h : t.val + 1 = (cfg0 a).grid.N
  · exact Or.inl h
  · have h' : t.val + 1 < (cfg0 a).grid.N := by rw [hN] at h ⊢; omega
    refine Or.inr ⟨h', fun e => ?_⟩
    have e0 := congrFun e (0 : Fin 3)
    rw [idx4, idx4, tr4, tr4] at e0
    have e1 : (grid0.coords ⟨t.val + 1, h'⟩ 0).val = (grid0.coords t 0).val := e0
    rw [crd0, crd0] at e1
    simp at e1

/-- An element of the output block at point `t` sits in row `t`, at its own last coordinate. -/
theorem emb4 (t : Fin (cfg0 a).N) (j : S1x1x64.Idx) :
    ((((cfg0 a).win 4).blk t).view.emb j (0 : Fin 3)).val = t.val ∧ ((((cfg0 a).win 4).blk t).view.emb j (2 : Fin 3)).val = (j 2).val := by
  have hidx : ((cfg0 a).win 4).index t = ![t.val, 0, 0] := by rw [idx4, tr4, crd0]
  have j0 : (j 0).val < 1 := (j 0).isLt
  constructor
  · refine (((cfg0 a).win 4).rect_emb_val t j (0 : Fin 3)).trans ?_
    rw [hidx]
    show t.val * 1 + (j 0).val = t.val
    omega
  · refine (((cfg0 a).win 4).rect_emb_val t j (2 : Fin 3)).trans ?_
    rw [hidx]
    show 0 * 64 + (j 2).val = (j 2).val
    omega

/-- What point `t` writes back is block `t` of `G4`. -/
theorem flushed4_eq (ids : (⟨1, ![4096]⟩ : Shape).Idx → BitVec 32) (hpf : a.1 0 = ids)
    (hu : ∀ i : Fin 4096, (ids (ix1 i)).toNat < 1000000) (c : Dev nD) (t : Fin (cfg0 a).N) :
    (dat0 V a c).flushed 4 t = (((cfg0 a).win 4).blk t).view.read (Elt F) (G4 V ids hu c) := by
  show ((cfg0 a).win 4).cut ((cfg0 a).grid.coords t) ((dat0 V a c).after 4 t) = _
  rw [after0_4]
  funext j
  show out0_4 (iblk0 V a c 0 t) j = G4 V ids hu c ((((cfg0 a).win 4).blk t).view.emb j)
  refine (congrFun (out0_4_eq (iblk0 V a c 0 t)) j).trans ?_
  exact iblk0_0_apply V a ids hpf hu c t _ _ j (emb4 a t j).1 (emb4 a t j).2

/-- An index of the output array is in point `t`'s block iff each coordinate is in the block's range on its axis. -/
theorem mem_blk4 (t : Fin (cfg0 a).N) (i : S4096x1x64.Idx) :
    i ∈ (((cfg0 a).win 4).blk t).view.set ↔ ∀ d : Fin 3, ((cfg0 a).win 4).index t d * S1x1x64.size d ≤ (i d).val ∧ (i d).val < ((cfg0 a).win 4).index t d * S1x1x64.size d + S1x1x64.size d := by
  have e : (((cfg0 a).win 4).blk t).view.set = (((cfg0 a).win 4).rect t).set :=
    View.set_slice_whole main_v4_0 (((cfg0 a).win 4).rect t)
  exact (Iff.of_eq (congrArg (fun s => i ∈ s) e)).trans Rect.mem_set_unit

/-- Row `r` of the output array is covered by point `r`'s block. -/
theorem cover4 (i : S4096x1x64.Idx) : ∃ t : Fin (cfg0 a).N, ((cfg0 a).win 4).flush t = true ∧ i ∈ (((cfg0 a).win 4).blk t).view.set := by
  have h0 : (i 0).val < 4096 := (i 0).isLt
  have h1 : (i 1).val < 1 := (i 1).isLt
  have h2 : (i 2).val < 64 := (i 2).isLt
  have hN : (cfg0 a).N = 4096 := N_0
  refine ⟨⟨(i 0).val, by omega⟩, flush4 a _, ?_⟩
  rw [mem_blk4]
  intro d
  rw [idx4, tr4, crd0]
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 64 ≤ (i 2).val ∧ (i 2).val < 0 * 64 + 64; omega

/-- So the first output array ends holding `G4`. -/
theorem final4 (ids : (⟨1, ![4096]⟩ : Shape).Idx → BitVec 32) (hpf : a.1 0 = ids)
    (hu : ∀ i : Fin 4096, (ids (ix1 i)).toNat < 1000000) (c : Dev nD) :
    (dat0 V a c).arrAt 4 (cfg0 a).N = G4 V ids hu c :=
  (dat0 V a c).arrAt_eq_of_cover 4 (G4 V ids hu c) (fun t _ => flushed4_eq V a ids hpf hu c t) (cover4 a)

/-! ## Second output: the user bias entries -/

/-- What the second output ends holding: at row `z 0`, entry ids[z 0] of the user bias column. -/
def G5 (ids : (⟨1, ![4096]⟩ : Shape).Idx → BitVec 32) (hu : ∀ i : Fin 4096, (ids (ix1 i)).toNat < 1000000) (c : Dev nD) :
    S4096x1x1.Idx → Elt F .f32 :=
  fun z => V c main_v1 (ix3 (Cert.Rating.rowOf 1000000 ids hu ⟨(z 0).val, (z 0).isLt⟩) (0 : Fin 1) (0 : Fin 1))

theorem G5_at (ids : (⟨1, ![4096]⟩ : Shape).Idx → BitVec 32) (hu : ∀ i : Fin 4096, (ids (ix1 i)).toNat < 1000000) (c : Dev nD)
    (i : Fin 4096) :
    G5 V ids hu c (ix3 i (0 : Fin 1) (0 : Fin 1)) = V c main_v1 (ix3 (Cert.Rating.rowOf 1000000 ids hu i) (0 : Fin 1) (0 : Fin 1)) := rfl

/-- The input block at point `t` is entry ids[t] of the column. -/
theorem iblk0_1_apply (ids : (⟨1, ![4096]⟩ : Shape).Idx → BitVec 32) (hpf : a.1 0 = ids)
    (hu : ∀ i : Fin 4096, (ids (ix1 i)).toNat < 1000000)
    (c : Dev nD) (t : Fin (cfg0 a).N) (k : Fin 4096) (y : S1x1x1.Idx) (hk : k.val = t.val) :
    iblk0 V a c 1 t y = V c main_v1 (ix3 (Cert.Rating.rowOf 1000000 ids hu k) (0 : Fin 1) (0 : Fin 1)) := by
  have hidx : ((cfg0 a).win 1).index t = ![(ids (ix1 k)).toNat, 0, 0] := by
    rw [idx1, tr1 a.1 (grid0.coords t) k ((crd0 t).trans hk.symm), hpf]
  have y0 : (y 0).val < 1 := (y 0).isLt
  have y1 : (y 1).val < 1 := (y 1).isLt
  have y2 : (y 2).val < 1 := (y 2).isLt
  unfold iblk0
  show V c main_v1 ((((cfg0 a).win 1).blk t).view.emb y) = _
  refine congrArg (V c main_v1) (funext fun d => Fin.ext ?_)
  match d with
  | ⟨0, h0⟩ =>
    refine (((cfg0 a).win 1).rect_emb_val t y ⟨0, h0⟩).trans ?_
    rw [hidx]
    show (ids (ix1 k)).toNat * 1 + (y 0).val = (ids (ix1 k)).toNat
    omega
  | ⟨1, h1⟩ =>
    refine (((cfg0 a).win 1).rect_emb_val t y ⟨1, h1⟩).trans ?_
    rw [hidx]
    show 0 * 1 + (y 1).val = 0
    omega
  | ⟨2, h2⟩ =>
    refine (((cfg0 a).win 1).rect_emb_val t y ⟨2, h2⟩).trans ?_
    rw [hidx]
    show 0 * 1 + (y 2).val = 0
    omega

theorem flush5 (t : Fin (cfg0 a).N) : ((cfg0 a).win 5).flush t = true := by
  have hN : (cfg0 a).grid.N = 4096 := N_0
  have ht : t.val < 4096 := lt_of_lt_of_eq t.isLt N_0
  unfold Window.flush
  rw [show ((cfg0 a).win 5).isOut = true from rfl, Bool.true_and, Bool.or_eq_true, decide_eq_true_eq, decide_eq_true_eq]
  by_cases h : t.val + 1 = (cfg0 a).grid.N
  · exact Or.inl h
  · have h' : t.val + 1 < (cfg0 a).grid.N := by rw [hN] at h ⊢; omega
    refine Or.inr ⟨h', fun e => ?_⟩
    have e0 := congrFun e (0 : Fin 3)
    rw [idx5, idx5, tr5, tr5] at e0
    have e1 : (grid0.coords ⟨t.val + 1, h'⟩ 0).val = (grid0.coords t 0).val := e0
    rw [crd0, crd0] at e1
    simp at e1

theorem emb5 (t : Fin (cfg0 a).N) (j : S1x1x1.Idx) :
    ((((cfg0 a).win 5).blk t).view.emb j (0 : Fin 3)).val = t.val := by
  have hidx : ((cfg0 a).win 5).index t = ![t.val, 0, 0] := by rw [idx5, tr5, crd0]
  have j0 : (j 0).val < 1 := (j 0).isLt
  refine (((cfg0 a).win 5).rect_emb_val t j (0 : Fin 3)).trans ?_
  rw [hidx]
  show t.val * 1 + (j 0).val = t.val
  omega

theorem flushed5_eq (ids : (⟨1, ![4096]⟩ : Shape).Idx → BitVec 32) (hpf : a.1 0 = ids)
    (hu : ∀ i : Fin 4096, (ids (ix1 i)).toNat < 1000000) (c : Dev nD) (t : Fin (cfg0 a).N) :
    (dat0 V a c).flushed 5 t = (((cfg0 a).win 5).blk t).view.read (Elt F) (G5 V ids hu c) := by
  show ((cfg0 a).win 5).cut ((cfg0 a).grid.coords t) ((dat0 V a c).after 5 t) = _
  rw [after0_5]
  funext j
  show out0_5 (iblk0 V a c 1 t) j = G5 V ids hu c ((((cfg0 a).win 5).blk t).view.emb j)
  refine (congrFun (out0_5_eq (iblk0 V a c 1 t)) j).trans ?_
  exact iblk0_1_apply V a ids hpf hu c t _ j (emb5 a t j)

theorem mem_blk5 (t : Fin (cfg0 a).N) (i : S4096x1x1.Idx) :
    i ∈ (((cfg0 a).win 5).blk t).view.set ↔ ∀ d : Fin 3, ((cfg0 a).win 5).index t d * S1x1x1.size d ≤ (i d).val ∧ (i d).val < ((cfg0 a).win 5).index t d * S1x1x1.size d + S1x1x1.size d := by
  have e : (((cfg0 a).win 5).blk t).view.set = (((cfg0 a).win 5).rect t).set :=
    View.set_slice_whole main_v4_1 (((cfg0 a).win 5).rect t)
  exact (Iff.of_eq (congrArg (fun s => i ∈ s) e)).trans Rect.mem_set_unit

theorem cover5 (i : S4096x1x1.Idx) : ∃ t : Fin (cfg0 a).N, ((cfg0 a).win 5).flush t = true ∧ i ∈ (((cfg0 a).win 5).blk t).view.set := by
  have h0 : (i 0).val < 4096 := (i 0).isLt
  have h1 : (i 1).val < 1 := (i 1).isLt
  have h2 : (i 2).val < 1 := (i 2).isLt
  have hN : (cfg0 a).N = 4096 := N_0
  refine ⟨⟨(i 0).val, by omega⟩, flush5 a _, ?_⟩
  rw [mem_blk5]
  intro d
  rw [idx5, tr5, crd0]
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 1 ≤ (i 2).val ∧ (i 2).val < 0 * 1 + 1; omega

theorem final5 (ids : (⟨1, ![4096]⟩ : Shape).Idx → BitVec 32) (hpf : a.1 0 = ids)
    (hu : ∀ i : Fin 4096, (ids (ix1 i)).toNat < 1000000) (c : Dev nD) :
    (dat0 V a c).arrAt 5 (cfg0 a).N = G5 V ids hu c :=
  (dat0 V a c).arrAt_eq_of_cover 5 (G5 V ids hu c) (fun t _ => flushed5_eq V a ids hpf hu c t) (cover5 a)

/-! ## Third output: the item weight rows -/

/-- What the third output ends holding: at row `z 0`, row ids[z 0] of the item weight table. -/
def G6 (ids : (⟨1, ![4096]⟩ : Shape).Idx → BitVec 32) (hv : ∀ i : Fin 4096, (ids (ix1 i)).toNat < 100000) (c : Dev nD) :
    S4096x1x64.Idx → Elt F .f32 :=
  fun z => V c main_v2 (ix3 (Cert.Rating.rowOf 100000 ids hv ⟨(z 0).val, (z 0).isLt⟩) (0 : Fin 1) (⟨(z 2).val, (z 2).isLt⟩ : Fin 64))

theorem G6_at (ids : (⟨1, ![4096]⟩ : Shape).Idx → BitVec 32) (hv : ∀ i : Fin 4096, (ids (ix1 i)).toNat < 100000) (c : Dev nD)
    (i : Fin 4096) (d : Fin 64) :
    G6 V ids hv c (ix3 i (0 : Fin 1) d) = V c main_v2 (ix3 (Cert.Rating.rowOf 100000 ids hv i) (0 : Fin 1) d) := rfl

/-- The input block at point `t` is row ids[t] of the table. -/
theorem iblk0_2_apply (ids : (⟨1, ![4096]⟩ : Shape).Idx → BitVec 32) (hpf : a.1 1 = ids)
    (hv : ∀ i : Fin 4096, (ids (ix1 i)).toNat < 100000)
    (c : Dev nD) (t : Fin (cfg0 a).N) (k : Fin 4096) (q : Fin 64) (y : S1x1x64.Idx) (hk : k.val = t.val) (hq : q.val = (y 2).val) :
    iblk0 V a c 2 t y = V c main_v2 (ix3 (Cert.Rating.rowOf 100000 ids hv k) (0 : Fin 1) q) := by
  have hidx : ((cfg0 a).win 2).index t = ![(ids (ix1 k)).toNat, 0, 0] := by
    rw [idx2, tr2 a.1 (grid0.coords t) k ((crd0 t).trans hk.symm), hpf]
  have y0 : (y 0).val < 1 := (y 0).isLt
  have y1 : (y 1).val < 1 := (y 1).isLt
  unfold iblk0
  show V c main_v2 ((((cfg0 a).win 2).blk t).view.emb y) = _
  refine congrArg (V c main_v2) (funext fun d => Fin.ext ?_)
  match d with
  | ⟨0, h0⟩ =>
    refine (((cfg0 a).win 2).rect_emb_val t y ⟨0, h0⟩).trans ?_
    rw [hidx]
    show (ids (ix1 k)).toNat * 1 + (y 0).val = (ids (ix1 k)).toNat
    omega
  | ⟨1, h1⟩ =>
    refine (((cfg0 a).win 2).rect_emb_val t y ⟨1, h1⟩).trans ?_
    rw [hidx]
    show 0 * 1 + (y 1).val = 0
    omega
  | ⟨2, h2⟩ =>
    refine (((cfg0 a).win 2).rect_emb_val t y ⟨2, h2⟩).trans ?_
    rw [hidx]
    show 0 * 64 + (y 2).val = q.val
    omega

theorem flush6 (t : Fin (cfg0 a).N) : ((cfg0 a).win 6).flush t = true := by
  have hN : (cfg0 a).grid.N = 4096 := N_0
  have ht : t.val < 4096 := lt_of_lt_of_eq t.isLt N_0
  unfold Window.flush
  rw [show ((cfg0 a).win 6).isOut = true from rfl, Bool.true_and, Bool.or_eq_true, decide_eq_true_eq, decide_eq_true_eq]
  by_cases h : t.val + 1 = (cfg0 a).grid.N
  · exact Or.inl h
  · have h' : t.val + 1 < (cfg0 a).grid.N := by rw [hN] at h ⊢; omega
    refine Or.inr ⟨h', fun e => ?_⟩
    have e0 := congrFun e (0 : Fin 3)
    rw [idx6, idx6, tr6, tr6] at e0
    have e1 : (grid0.coords ⟨t.val + 1, h'⟩ 0).val = (grid0.coords t 0).val := e0
    rw [crd0, crd0] at e1
    simp at e1

theorem emb6 (t : Fin (cfg0 a).N) (j : S1x1x64.Idx) :
    ((((cfg0 a).win 6).blk t).view.emb j (0 : Fin 3)).val = t.val ∧ ((((cfg0 a).win 6).blk t).view.emb j (2 : Fin 3)).val = (j 2).val := by
  have hidx : ((cfg0 a).win 6).index t = ![t.val, 0, 0] := by rw [idx6, tr6, crd0]
  have j0 : (j 0).val < 1 := (j 0).isLt
  constructor
  · refine (((cfg0 a).win 6).rect_emb_val t j (0 : Fin 3)).trans ?_
    rw [hidx]
    show t.val * 1 + (j 0).val = t.val
    omega
  · refine (((cfg0 a).win 6).rect_emb_val t j (2 : Fin 3)).trans ?_
    rw [hidx]
    show 0 * 64 + (j 2).val = (j 2).val
    omega

theorem flushed6_eq (ids : (⟨1, ![4096]⟩ : Shape).Idx → BitVec 32) (hpf : a.1 1 = ids)
    (hv : ∀ i : Fin 4096, (ids (ix1 i)).toNat < 100000) (c : Dev nD) (t : Fin (cfg0 a).N) :
    (dat0 V a c).flushed 6 t = (((cfg0 a).win 6).blk t).view.read (Elt F) (G6 V ids hv c) := by
  show ((cfg0 a).win 6).cut ((cfg0 a).grid.coords t) ((dat0 V a c).after 6 t) = _
  rw [after0_6]
  funext j
  show out0_6 (iblk0 V a c 2 t) j = G6 V ids hv c ((((cfg0 a).win 6).blk t).view.emb j)
  refine (congrFun (out0_6_eq (iblk0 V a c 2 t)) j).trans ?_
  exact iblk0_2_apply V a ids hpf hv c t _ _ j (emb6 a t j).1 (emb6 a t j).2

theorem mem_blk6 (t : Fin (cfg0 a).N) (i : S4096x1x64.Idx) :
    i ∈ (((cfg0 a).win 6).blk t).view.set ↔ ∀ d : Fin 3, ((cfg0 a).win 6).index t d * S1x1x64.size d ≤ (i d).val ∧ (i d).val < ((cfg0 a).win 6).index t d * S1x1x64.size d + S1x1x64.size d := by
  have e : (((cfg0 a).win 6).blk t).view.set = (((cfg0 a).win 6).rect t).set :=
    View.set_slice_whole main_v4_2 (((cfg0 a).win 6).rect t)
  exact (Iff.of_eq (congrArg (fun s => i ∈ s) e)).trans Rect.mem_set_unit

theorem cover6 (i : S4096x1x64.Idx) : ∃ t : Fin (cfg0 a).N, ((cfg0 a).win 6).flush t = true ∧ i ∈ (((cfg0 a).win 6).blk t).view.set := by
  have h0 : (i 0).val < 4096 := (i 0).isLt
  have h1 : (i 1).val < 1 := (i 1).isLt
  have h2 : (i 2).val < 64 := (i 2).isLt
  have hN : (cfg0 a).N = 4096 := N_0
  refine ⟨⟨(i 0).val, by omega⟩, flush6 a _, ?_⟩
  rw [mem_blk6]
  intro d
  rw [idx6, tr6, crd0]
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 64 ≤ (i 2).val ∧ (i 2).val < 0 * 64 + 64; omega

theorem final6 (ids : (⟨1, ![4096]⟩ : Shape).Idx → BitVec 32) (hpf : a.1 1 = ids)
    (hv : ∀ i : Fin 4096, (ids (ix1 i)).toNat < 100000) (c : Dev nD) :
    (dat0 V a c).arrAt 6 (cfg0 a).N = G6 V ids hv c :=
  (dat0 V a c).arrAt_eq_of_cover 6 (G6 V ids hv c) (fun t _ => flushed6_eq V a ids hpf hv c t) (cover6 a)

/-! ## Fourth output: the item bias entries -/

/-- What the fourth output ends holding: at row `z 0`, entry ids[z 0] of the item bias column. -/
def G7 (ids : (⟨1, ![4096]⟩ : Shape).Idx → BitVec 32) (hv : ∀ i : Fin 4096, (ids (ix1 i)).toNat < 100000) (c : Dev nD) :
    S4096x1x1.Idx → Elt F .f32 :=
  fun z => V c main_v3 (ix3 (Cert.Rating.rowOf 100000 ids hv ⟨(z 0).val, (z 0).isLt⟩) (0 : Fin 1) (0 : Fin 1))

theorem G7_at (ids : (⟨1, ![4096]⟩ : Shape).Idx → BitVec 32) (hv : ∀ i : Fin 4096, (ids (ix1 i)).toNat < 100000) (c : Dev nD)
    (i : Fin 4096) :
    G7 V ids hv c (ix3 i (0 : Fin 1) (0 : Fin 1)) = V c main_v3 (ix3 (Cert.Rating.rowOf 100000 ids hv i) (0 : Fin 1) (0 : Fin 1)) := rfl

/-- The input block at point `t` is entry ids[t] of the column. -/
theorem iblk0_3_apply (ids : (⟨1, ![4096]⟩ : Shape).Idx → BitVec 32) (hpf : a.1 1 = ids)
    (hv : ∀ i : Fin 4096, (ids (ix1 i)).toNat < 100000)
    (c : Dev nD) (t : Fin (cfg0 a).N) (k : Fin 4096) (y : S1x1x1.Idx) (hk : k.val = t.val) :
    iblk0 V a c 3 t y = V c main_v3 (ix3 (Cert.Rating.rowOf 100000 ids hv k) (0 : Fin 1) (0 : Fin 1)) := by
  have hidx : ((cfg0 a).win 3).index t = ![(ids (ix1 k)).toNat, 0, 0] := by
    rw [idx3, tr3 a.1 (grid0.coords t) k ((crd0 t).trans hk.symm), hpf]
  have y0 : (y 0).val < 1 := (y 0).isLt
  have y1 : (y 1).val < 1 := (y 1).isLt
  have y2 : (y 2).val < 1 := (y 2).isLt
  unfold iblk0
  show V c main_v3 ((((cfg0 a).win 3).blk t).view.emb y) = _
  refine congrArg (V c main_v3) (funext fun d => Fin.ext ?_)
  match d with
  | ⟨0, h0⟩ =>
    refine (((cfg0 a).win 3).rect_emb_val t y ⟨0, h0⟩).trans ?_
    rw [hidx]
    show (ids (ix1 k)).toNat * 1 + (y 0).val = (ids (ix1 k)).toNat
    omega
  | ⟨1, h1⟩ =>
    refine (((cfg0 a).win 3).rect_emb_val t y ⟨1, h1⟩).trans ?_
    rw [hidx]
    show 0 * 1 + (y 1).val = 0
    omega
  | ⟨2, h2⟩ =>
    refine (((cfg0 a).win 3).rect_emb_val t y ⟨2, h2⟩).trans ?_
    rw [hidx]
    show 0 * 1 + (y 2).val = 0
    omega

theorem flush7 (t : Fin (cfg0 a).N) : ((cfg0 a).win 7).flush t = true := by
  have hN : (cfg0 a).grid.N = 4096 := N_0
  have ht : t.val < 4096 := lt_of_lt_of_eq t.isLt N_0
  unfold Window.flush
  rw [show ((cfg0 a).win 7).isOut = true from rfl, Bool.true_and, Bool.or_eq_true, decide_eq_true_eq, decide_eq_true_eq]
  by_cases h : t.val + 1 = (cfg0 a).grid.N
  · exact Or.inl h
  · have h' : t.val + 1 < (cfg0 a).grid.N := by rw [hN] at h ⊢; omega
    refine Or.inr ⟨h', fun e => ?_⟩
    have e0 := congrFun e (0 : Fin 3)
    rw [idx7, idx7, tr7, tr7] at e0
    have e1 : (grid0.coords ⟨t.val + 1, h'⟩ 0).val = (grid0.coords t 0).val := e0
    rw [crd0, crd0] at e1
    simp at e1

theorem emb7 (t : Fin (cfg0 a).N) (j : S1x1x1.Idx) :
    ((((cfg0 a).win 7).blk t).view.emb j (0 : Fin 3)).val = t.val := by
  have hidx : ((cfg0 a).win 7).index t = ![t.val, 0, 0] := by rw [idx7, tr7, crd0]
  have j0 : (j 0).val < 1 := (j 0).isLt
  refine (((cfg0 a).win 7).rect_emb_val t j (0 : Fin 3)).trans ?_
  rw [hidx]
  show t.val * 1 + (j 0).val = t.val
  omega

theorem flushed7_eq (ids : (⟨1, ![4096]⟩ : Shape).Idx → BitVec 32) (hpf : a.1 1 = ids)
    (hv : ∀ i : Fin 4096, (ids (ix1 i)).toNat < 100000) (c : Dev nD) (t : Fin (cfg0 a).N) :
    (dat0 V a c).flushed 7 t = (((cfg0 a).win 7).blk t).view.read (Elt F) (G7 V ids hv c) := by
  show ((cfg0 a).win 7).cut ((cfg0 a).grid.coords t) ((dat0 V a c).after 7 t) = _
  rw [after0_7]
  funext j
  show out0_7 (iblk0 V a c 3 t) j = G7 V ids hv c ((((cfg0 a).win 7).blk t).view.emb j)
  refine (congrFun (out0_7_eq (iblk0 V a c 3 t)) j).trans ?_
  exact iblk0_3_apply V a ids hpf hv c t _ j (emb7 a t j)

theorem mem_blk7 (t : Fin (cfg0 a).N) (i : S4096x1x1.Idx) :
    i ∈ (((cfg0 a).win 7).blk t).view.set ↔ ∀ d : Fin 3, ((cfg0 a).win 7).index t d * S1x1x1.size d ≤ (i d).val ∧ (i d).val < ((cfg0 a).win 7).index t d * S1x1x1.size d + S1x1x1.size d := by
  have e : (((cfg0 a).win 7).blk t).view.set = (((cfg0 a).win 7).rect t).set :=
    View.set_slice_whole main_v4_3 (((cfg0 a).win 7).rect t)
  exact (Iff.of_eq (congrArg (fun s => i ∈ s) e)).trans Rect.mem_set_unit

theorem cover7 (i : S4096x1x1.Idx) : ∃ t : Fin (cfg0 a).N, ((cfg0 a).win 7).flush t = true ∧ i ∈ (((cfg0 a).win 7).blk t).view.set := by
  have h0 : (i 0).val < 4096 := (i 0).isLt
  have h1 : (i 1).val < 1 := (i 1).isLt
  have h2 : (i 2).val < 1 := (i 2).isLt
  have hN : (cfg0 a).N = 4096 := N_0
  refine ⟨⟨(i 0).val, by omega⟩, flush7 a _, ?_⟩
  rw [mem_blk7]
  intro d
  rw [idx7, tr7, crd0]
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 1 ≤ (i 2).val ∧ (i 2).val < 0 * 1 + 1; omega

theorem final7 (ids : (⟨1, ![4096]⟩ : Shape).Idx → BitVec 32) (hpf : a.1 1 = ids)
    (hv : ∀ i : Fin 4096, (ids (ix1 i)).toNat < 100000) (c : Dev nD) :
    (dat0 V a c).arrAt 7 (cfg0 a).N = G7 V ids hv c :=
  (dat0 V a c).arrAt_eq_of_cover 7 (G7 V ids hv c) (fun t _ => flushed7_eq V a ids hpf hv c t) (cover7 a)

end GatherVal

/-! ## The four outputs after the gather, at the run's own contents -/

open GatherVal

variable (m : (ℓ : Loc nD τ sig) → Buf (Elt F) ℓ) (ρ : Dev nD → PrngReg) (hO : Ok m ρ)

/-- User weights: output row `i` is row `user_ids[i]` of the (reshaped) user weight table. -/
theorem V2_v4_0 (hu : ∀ i : Fin 4096, (tbl m ρ 0 (ix1 i)).toNat < 1000000) (c : Dev nD) (i : Fin 4096) (d : Fin 64) :
    V2 m ρ hO c main_v4_0 (ix3 i (0 : Fin 1) d)
      = V1 m ρ c main_v0 (ix3 (Cert.Rating.rowOf 1000000 (tbl m ρ 0) hu i) (0 : Fin 1) d) := by
  have e : V2 m ρ hO c main_v4_0 = G4 (V1 m ρ) (tbl m ρ 0) hu c :=
    (W2_arr m ρ hO c 4).trans (final4 (V1 m ρ) (a0 m ρ hO) (tbl m ρ 0) rfl hu c)
  exact (congrFun e _).trans (G4_at (V1 m ρ) (tbl m ρ 0) hu c i d)

/-- User bias. -/
theorem V2_v4_1 (hu : ∀ i : Fin 4096, (tbl m ρ 0 (ix1 i)).toNat < 1000000) (c : Dev nD) (i : Fin 4096) :
    V2 m ρ hO c main_v4_1 (ix3 i (0 : Fin 1) (0 : Fin 1))
      = V1 m ρ c main_v1 (ix3 (Cert.Rating.rowOf 1000000 (tbl m ρ 0) hu i) (0 : Fin 1) (0 : Fin 1)) := by
  have e : V2 m ρ hO c main_v4_1 = G5 (V1 m ρ) (tbl m ρ 0) hu c :=
    (W2_arr m ρ hO c 5).trans (final5 (V1 m ρ) (a0 m ρ hO) (tbl m ρ 0) rfl hu c)
  exact (congrFun e _).trans (G5_at (V1 m ρ) (tbl m ρ 0) hu c i)

/-- Item weights. -/
theorem V2_v4_2 (hv : ∀ i : Fin 4096, (tbl m ρ 1 (ix1 i)).toNat < 100000) (c : Dev nD) (i : Fin 4096) (d : Fin 64) :
    V2 m ρ hO c main_v4_2 (ix3 i (0 : Fin 1) d)
      = V1 m ρ c main_v2 (ix3 (Cert.Rating.rowOf 100000 (tbl m ρ 1) hv i) (0 : Fin 1) d) := by
  have e : V2 m ρ hO c main_v4_2 = G6 (V1 m ρ) (tbl m ρ 1) hv c :=
    (W2_arr m ρ hO c 6).trans (final6 (V1 m ρ) (a0 m ρ hO) (tbl m ρ 1) rfl hv c)
  exact (congrFun e _).trans (G6_at (V1 m ρ) (tbl m ρ 1) hv c i d)

/-- Item bias. -/
theorem V2_v4_3 (hv : ∀ i : Fin 4096, (tbl m ρ 1 (ix1 i)).toNat < 100000) (c : Dev nD) (i : Fin 4096) :
    V2 m ρ hO c main_v4_3 (ix3 i (0 : Fin 1) (0 : Fin 1))
      = V1 m ρ c main_v3 (ix3 (Cert.Rating.rowOf 100000 (tbl m ρ 1) hv i) (0 : Fin 1) (0 : Fin 1)) := by
  have e : V2 m ρ hO c main_v4_3 = G7 (V1 m ρ) (tbl m ρ 1) hv c :=
    (W2_arr m ρ hO c 7).trans (final7 (V1 m ρ) (a0 m ρ hO) (tbl m ρ 1) rfl hv c)
  exact (congrFun e _).trans (G7_at (V1 m ρ) (tbl m ρ 1) hv c i)

end Cert.KernelIdeal.Hand

end
-- ==== Proof.KI.ValMatmul.lean ====
/-
  What the blocked product leaves: entry `(i, j)` of its output is the inner product of row `i` of its first operand and
  row `j` of its second over the 64 latent coordinates, plus the user-bias column at `i`, the item-bias row at `j` and the
  global bias, in that order. Stated at the extended reals, for any contents `V` the call is entered from.
-/
import proofs.«404068_j7576322310165_2_alg».proof.Proof.KI.Matmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The body's payload at an index -/

/-- The contraction's operand indices at an output index and a contraction index, axis by axis: the first operand is read
    at (output row, k), the second at (output column, k). -/
theorem dot1_lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem dot1_lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem dot1_rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem dot1_rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The product of two [1024, 64] blocks contracted over their second axes, into zero, at entry (p, q). -/
theorem dot1_matmul_at (a b : FVec Ideal S1024x64 .bf16) (p q : Fin 1024) :
    matmul dot_S1024x64_S1024x64_S1024x1024_1_1_0_0_n_n none a b (constant (F := Ideal) S1024x1024 .f32 0x00000000#32) (ix2 p q)
      = ∑ k : Fin 64, a (ix2 p k) * b (ix2 q k) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q) ((ValueIdx.contrEquiv1 dot_S1024x64_S1024x64_S1024x1024_1_1_0_0_n_n 64 rfl rfl).symm k) = ix2 p k := funext fun a => Fin.ext (by
    match a with
    | ⟨0, _⟩ => exact dot1_lhs_0 _ _
    | ⟨1, _⟩ => exact (dot1_lhs_1 _ _).trans hk)
  have er : dot_S1024x64_S1024x64_S1024x1024_1_1_0_0_n_n.rhsIdx (ix2 p q) ((ValueIdx.contrEquiv1 dot_S1024x64_S1024x64_S1024x1024_1_1_0_0_n_n 64 rfl rfl).symm k) = ix2 q k := funext fun a => Fin.ext (by
    match a with
    | ⟨0, _⟩ => exact dot1_rhs_0 _ _
    | ⟨1, _⟩ => exact (dot1_rhs_1 _ _).trans hk)
  rw [el, er]

/-- A [1024, 1] column broadcast to [1024, 1024] reads, at (p, q), the column at p. -/
theorem broadcastTo_col_at (v : (S1024x1).Idx → Ideal .f32) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ =>
    show p.val = if (1024 : Nat) = 1 then 0 else p.val
    rw [if_neg (by decide)]
  | ⟨1, _⟩ => rfl

/-- The [1, 1] block's one entry. -/
theorem extract_one_at (x4 : Vec Ideal S1x1 .f32) :
    extractAt ![0, 0] x4 inpos_S1x1_p0_0 = x4 (ix2 (0 : Fin 1) (0 : Fin 1)) := by
  unfold extractAt
  refine congrArg x4 (funext fun a => Fin.ext ?_)
  match a with
  | ⟨0, _⟩ => rfl
  | ⟨1, _⟩ => rfl

/-- The body's stored block, entry (p, q): the inner product of row p of the first block and row q of the second,
    plus the column at p, the row at q and the scalar. -/
theorem k1_pay1_at (x0 x1 : Vec Ideal S1024x64 .f32) (x2 : Vec Ideal S1024x1 .f32) (x3 : Vec Ideal S1x1024 .f32)
    (x4 : Vec Ideal S1x1 .f32) (p q : Fin 1024) :
    k1_pay1 x0 x1 x2 x3 x4 (ix2 p q)
      = (((∑ k : Fin 64, x0 (ix2 p k) * x1 (ix2 q k)) + x2 (ix2 p (0 : Fin 1))) + x3 (ix2 (0 : Fin 1) q))
          + x4 (ix2 (0 : Fin 1) (0 : Fin 1)) := by
  unfold k1_pay1
  simp only [shapeCast_self]
  rw [addf_apply, addf_apply, addf_apply, dot1_matmul_at, broadcastTo_col_at, broadcastTo_1b_ab_apply, broadcast_apply, extract_one_at]
  simp only [truncf_apply]

variable (V : (c : Dev nD) → (b : Ref sig .tc) → Buf (Elt Ideal) ((c : Thread nD τ).loc b))

/-- The product's five operand arrays as the call finds them, at their literal types. -/
abbrev lhsA (c : Dev nD) : (⟨S4096x64, .f32⟩ : BufTy).Contents (Elt Ideal) := V c main_v5
abbrev rhsA (c : Dev nD) : (⟨S4096x64, .f32⟩ : BufTy).Contents (Elt Ideal) := V c main_v7
abbrev colA (c : Dev nD) : (⟨S4096x1, .f32⟩ : BufTy).Contents (Elt Ideal) := V c main_v6
abbrev rowA (c : Dev nD) : (⟨S1x4096, .f32⟩ : BufTy).Contents (Elt Ideal) := V c main_v9
abbrev oneA (c : Dev nD) : (⟨S1x1, .f32⟩ : BufTy).Contents (Elt Ideal) := V c main_v10
/-- The product's output array after its last grid point. -/
abbrev outA (c : Dev nD) : (⟨S4096x4096, .f32⟩ : BufTy).Contents (Elt Ideal) := (dat1 (F := Ideal) V c).arrAt 5 cfg1.N

/-! ## From blocks to the array -/

theorem prod_zero_offsets : (![0, 0] : Fin 2 → Nat) = fun _ => 0 := funext fun a => by fin_cases a <;> rfl

/-- Entry (i, j) of the product: the inner product of row i of the first operand and row j of the second, plus the
    column at i, the row at j and the scalar. -/
def prodEntry (c : Dev nD) (i j : Fin 4096) : EReal :=
  (((∑ k : Fin 64, lhsA V c (ix2 i k) * rhsA V c (ix2 j k)) + colA V c (ix2 i (0 : Fin 1)))
      + rowA V c (ix2 (0 : Fin 1) j)) + oneA V c (ix2 (0 : Fin 1) (0 : Fin 1))

/-- The whole [4096, 4096] array of those entries. -/
def prodG (c : Dev nD) : (⟨S4096x4096, .f32⟩ : BufTy).Contents (Elt Ideal) :=
  fun y => prodEntry V c ⟨(y 0).val, (y 0).isLt⟩ ⟨(y 1).val, (y 1).isLt⟩

/-- The index maps over the grid: point t is block (t / 4, t % 4) of the output; the first operand, the
    column and the output move together along rows, the second operand and the row along the output's columns. -/
theorem prod_index_facts : ∀ t : Fin cfg1.N,
    win1_0.index t (0 : Fin 2) = win1_5.index t (0 : Fin 2) ∧ win1_0.index t (1 : Fin 2) = 0
    ∧ win1_1.index t (0 : Fin 2) = win1_5.index t (1 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = win1_5.index t (1 : Fin 2)
    ∧ win1_4.index t (0 : Fin 2) = 0 ∧ win1_4.index t (1 : Fin 2) = 0
    ∧ win1_5.index t (0 : Fin 2) = t.val / 4 ∧ win1_5.index t (1 : Fin 2) = t.val % 4 :=
  (by decide +kernel : ∀ t : Fin grid1.N, _)

/-- What point t writes back is block t of the array of entries. -/
theorem prod_flushed_eq (c : Dev nD) (t : Fin cfg1.N) :
    (dat1 (F := Ideal) V c).flushed 5 t = ((cfg1.win 5).blk t).view.read (Elt Ideal) (prodG V c) := by
  show (cfg1.win 5).cut (grid1.coords t) ((dat1 (F := Ideal) V c).after 5 t) = _
  rw [after1_5]
  unfold out1_5
  rw [View.canon_unit_zero prod_zero_offsets]
  simp only [View.ld_unit_zero (S := S1024x64) prod_zero_offsets, View.ld_unit_zero (S := S1024x1) prod_zero_offsets,
    View.ld_unit_zero (S := S1x1024) prod_zero_offsets, View.ld_unit_zero (S := S1x1) prod_zero_offsets]
  obtain ⟨e00, e01, e10, e11, e20, e21, e30, e31, e40, e41, e50, e51⟩ := prod_index_facts t
  have hN : grid1.N = 16 := Gen.N_1
  have ht : t.val < 16 := hN ▸ t.isLt
  funext y
  obtain ⟨p, q, rfl⟩ : ∃ (p q : Fin 1024), y = ix2 p q := ⟨y 0, y 1, eq_ix2 y⟩
  show k1_pay1 (iblk1 V c 0 t) (iblk1 V c 1 t) (iblk1 V c 2 t) (iblk1 V c 3 t) (iblk1 V c 4 t) (ix2 p q)
    = prodG V c (((cfg1.win 5).blk t).view.emb (ix2 p q))
  refine (k1_pay1_at _ _ _ _ _ p q).trans ?_
  have hp : p.val < 1024 := p.isLt
  have hq : q.val < 1024 := q.isLt
  obtain ⟨i, hi⟩ : ∃ i : Fin 4096, i.val = win1_5.index t (0 : Fin 2) * 1024 + p.val := ⟨⟨_, by omega⟩, rfl⟩
  obtain ⟨j, hj⟩ : ∃ j : Fin 4096, j.val = win1_5.index t (1 : Fin 2) * 1024 + q.val := ⟨⟨_, by omega⟩, rfl⟩
  have hG : prodG V c (((cfg1.win 5).blk t).view.emb (ix2 p q)) = prodEntry V c i j := by
    unfold prodG
    congr 1 <;> apply Fin.ext
    · show win1_5.index t (0 : Fin 2) * 1024 + 1 * p.val = i.val; omega
    · show win1_5.index t (1 : Fin 2) * 1024 + 1 * q.val = j.val; omega
  rw [hG]
  unfold prodEntry
  have h0 : ∀ k : Fin 64, (iblk1 V c 0 t : Vec Ideal S1024x64 .f32) (ix2 p k) = lhsA V c (ix2 i k) := fun k => by
    show V c main_v5 (((cfg1.win 0).blk t).view.emb (ix2 p k)) = V c main_v5 (ix2 i k)
    refine congrArg (V c main_v5) (funext fun a => Fin.ext ?_)
    match a with
    | ⟨0, _⟩ => show win1_0.index t (0 : Fin 2) * 1024 + 1 * p.val = i.val; omega
    | ⟨1, _⟩ => show win1_0.index t (1 : Fin 2) * 64 + 1 * k.val = k.val; omega
  have h1 : ∀ k : Fin 64, (iblk1 V c 1 t : Vec Ideal S1024x64 .f32) (ix2 q k) = rhsA V c (ix2 j k) := fun k => by
    show V c main_v7 (((cfg1.win 1).blk t).view.emb (ix2 q k)) = V c main_v7 (ix2 j k)
    refine congrArg (V c main_v7) (funext fun a => Fin.ext ?_)
    match a with
    | ⟨0, _⟩ => show win1_1.index t (0 : Fin 2) * 1024 + 1 * q.val = j.val; omega
    | ⟨1, _⟩ => show win1_1.index t (1 : Fin 2) * 64 + 1 * k.val = k.val; omega
  have h2 : (iblk1 V c 2 t : Vec Ideal S1024x1 .f32) (ix2 p (0 : Fin 1)) = colA V c (ix2 i (0 : Fin 1)) := by
    show V c main_v6 (((cfg1.win 2).blk t).view.emb (ix2 p (0 : Fin 1))) = V c main_v6 (ix2 i (0 : Fin 1))
    refine congrArg (V c main_v6) (funext fun a => Fin.ext ?_)
    match a with
    | ⟨0, _⟩ => show win1_2.index t (0 : Fin 2) * 1024 + 1 * p.val = i.val; omega
    | ⟨1, _⟩ => show win1_2.index t (1 : Fin 2) * 1 + 1 * 0 = 0; omega
  have h3 : (iblk1 V c 3 t : Vec Ideal S1x1024 .f32) (ix2 (0 : Fin 1) q) = rowA V c (ix2 (0 : Fin 1) j) := by
    show V c main_v9 (((cfg1.win 3).blk t).view.emb (ix2 (0 : Fin 1) q)) = V c main_v9 (ix2 (0 : Fin 1) j)
    refine congrArg (V c main_v9) (funext fun a => Fin.ext ?_)
    match a with
    | ⟨0, _⟩ => show win1_3.index t (0 : Fin 2) * 1 + 1 * 0 = 0; omega
    | ⟨1, _⟩ => show win1_3.index t (1 : Fin 2) * 1024 + 1 * q.val = j.val; omega
  have h4 : (iblk1 V c 4 t : Vec Ideal S1x1 .f32) (ix2 (0 : Fin 1) (0 : Fin 1)) = oneA V c (ix2 (0 : Fin 1) (0 : Fin 1)) := by
    show V c main_v10 (((cfg1.win 4).blk t).view.emb (ix2 (0 : Fin 1) (0 : Fin 1))) = V c main_v10 (ix2 (0 : Fin 1) (0 : Fin 1))
    refine congrArg (V c main_v10) (funext fun a => Fin.ext ?_)
    match a with
    | ⟨0, _⟩ => show win1_4.index t (0 : Fin 2) * 1 + 1 * 0 = 0; omega
    | ⟨1, _⟩ => show win1_4.index t (1 : Fin 2) * 1 + 1 * 0 = 0; omega
  rw [h2, h3, h4]
  simp only [h0, h1]

/-- An index of the output array is in point t's block exactly when each coordinate is in the block's range. -/
theorem prod_mem_blk (t : Fin cfg1.N) (i : S4096x4096.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v11).slice (win1_5.rect t)).set ↔ _
  rw [View.set_slice_whole, Rect.mem_set_unit]
  exact Iff.rfl

/-- The sixteen blocks cover the output: entry (i, j) lies in the block of point (i / 1024) * 4 + j / 1024. -/
theorem prod_cover (i : S4096x4096.Idx) :
    ∃ t : Fin cfg1.N, (cfg1.win 5).flush t = true ∧ i ∈ ((cfg1.win 5).blk t).view.set := by
  have hi0 : (i 0).val < 4096 := (i 0).isLt
  have hi1 : (i 1).val < 4096 := (i 1).isLt
  have hN : grid1.N = 16 := Gen.N_1
  let t : Fin cfg1.N := ⟨(i 0).val / 1024 * 4 + (i 1).val / 1024, by show _ < grid1.N; rw [hN]; omega⟩
  have htv : t.val = (i 0).val / 1024 * 4 + (i 1).val / 1024 := rfl
  obtain ⟨-, -, -, -, -, -, -, -, -, -, e50, e51⟩ := prod_index_facts t
  refine ⟨t, flush1_5 t, ?_⟩
  rw [prod_mem_blk]
  intro a
  match a with
  | ⟨0, _⟩ =>
    show win1_5.index t (0 : Fin 2) * 1024 ≤ (i 0).val ∧ (i 0).val < win1_5.index t (0 : Fin 2) * 1024 + 1024
    omega
  | ⟨1, _⟩ =>
    show win1_5.index t (1 : Fin 2) * 1024 ≤ (i 1).val ∧ (i 1).val < win1_5.index t (1 : Fin 2) * 1024 + 1024
    omega

/-- The output array after the last point is the array of entries. -/
theorem outA_eq (c : Dev nD) : outA V c = prodG V c :=
  (dat1 (F := Ideal) V c).arrAt_eq_of_cover 5 (prodG V c) (fun t _ => prod_flushed_eq V c t) prod_cover

/-- The product's output array after its last grid point, entry by entry. -/
theorem product_at (c : Dev nD) (i j : Fin 4096) :
    outA V c (ix2 i j)
      = (((∑ k : Fin 64, lhsA V c (ix2 i k) * rhsA V c (ix2 j k)) + colA V c (ix2 i (0 : Fin 1)))
          + rowA V c (ix2 (0 : Fin 1) j)) + oneA V c (ix2 (0 : Fin 1) (0 : Fin 1)) :=
  congrFun (outA_eq V c) (ix2 i j)

end Cert.KernelIdeal.Hand

end
-- ==== Proof.KI.ValHost.lean ====
/-
  The host reshapes read at an index. Before the gather each table gets a unit middle axis: entry (r, 0, d) of the
  reshaped table is entry (r, d) of the table. After it the unit axis is dropped again, the gathered item-bias column
  [4096, 1] is relaid as a row [1, 4096], and the global bias [1] as [1, 1]. A reshape keeps the row-major position, so
  each is one equation between two row-major positions.
-/
import proofs.«404068_j7576322310165_2_alg».proof.Proof.KI.Frame
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt F) ℓ) (ρ : Dev nD → PrngReg) (hO : Ok m ρ)

/-! ## Before the gather: a unit middle axis -/

theorem V1_v0 (c : Dev nD) (r : Fin 1000000) (d : Fin 64) :
    V1 m ρ c main_v0 (ix3 r (0 : Fin 1) d) = m ((c : Thread nD τ).loc main_arg2) (ix2 r d) := by
  have e : (V1 m ρ c main_v0 : S1000000x1x64.Idx → Elt F .f32)
      = shapeCast S1000000x1x64 (m ((c : Thread nD τ).loc main_arg2)) shapeCasts_S1000000x64_S1000000x1x64 := by
    show StableHlo.after hostOps0 (fun b => m (c, b)) (Proc.devRef .tc main_v0) = _
    after_results
    rfl
  rw [e]
  refine shapeCast_apply _ _ _ (ix2 r d) ?_
  rw [Shape.rowMajor_val_three, Shape.rowMajor_val_two]
  show r.val * 64 + d.val = (r.val * 1 + 0) * 64 + d.val
  omega

theorem V1_v1 (c : Dev nD) (r : Fin 1000000) :
    V1 m ρ c main_v1 (ix3 r (0 : Fin 1) (0 : Fin 1)) = m ((c : Thread nD τ).loc main_arg4) (ix2 r (0 : Fin 1)) := by
  have e : (V1 m ρ c main_v1 : S1000000x1x1.Idx → Elt F .f32)
      = shapeCast S1000000x1x1 (m ((c : Thread nD τ).loc main_arg4)) shapeCasts_S1000000x1_S1000000x1x1 := by
    show StableHlo.after hostOps0 (fun b => m (c, b)) (Proc.devRef .tc main_v1) = _
    after_results
    rfl
  rw [e]
  refine shapeCast_apply _ _ _ (ix2 r (0 : Fin 1)) ?_
  rw [Shape.rowMajor_val_three, Shape.rowMajor_val_two]
  show r.val * 1 + 0 = (r.val * 1 + 0) * 1 + 0
  omega

theorem V1_v2 (c : Dev nD) (r : Fin 100000) (d : Fin 64) :
    V1 m ρ c main_v2 (ix3 r (0 : Fin 1) d) = m ((c : Thread nD τ).loc main_arg3) (ix2 r d) := by
  have e : (V1 m ρ c main_v2 : S100000x1x64.Idx → Elt F .f32)
      = shapeCast S100000x1x64 (m ((c : Thread nD τ).loc main_arg3)) shapeCasts_S100000x64_S100000x1x64 := by
    show StableHlo.after hostOps0 (fun b => m (c, b)) (Proc.devRef .tc main_v2) = _
    after_results
    rfl
  rw [e]
  refine shapeCast_apply _ _ _ (ix2 r d) ?_
  rw [Shape.rowMajor_val_three, Shape.rowMajor_val_two]
  show r.val * 64 + d.val = (r.val * 1 + 0) * 64 + d.val
  omega

theorem V1_v3 (c : Dev nD) (r : Fin 100000) :
    V1 m ρ c main_v3 (ix3 r (0 : Fin 1) (0 : Fin 1)) = m ((c : Thread nD τ).loc main_arg5) (ix2 r (0 : Fin 1)) := by
  have e : (V1 m ρ c main_v3 : S100000x1x1.Idx → Elt F .f32)
      = shapeCast S100000x1x1 (m ((c : Thread nD τ).loc main_arg5)) shapeCasts_S100000x1_S100000x1x1 := by
    show StableHlo.after hostOps0 (fun b => m (c, b)) (Proc.devRef .tc main_v3) = _
    after_results
    rfl
  rw [e]
  refine shapeCast_apply _ _ _ (ix2 r (0 : Fin 1)) ?_
  rw [Shape.rowMajor_val_three, Shape.rowMajor_val_two]
  show r.val * 1 + 0 = (r.val * 1 + 0) * 1 + 0
  omega

/-! ## After the gather: the unit axis dropped, the item-bias column relaid as a row -/

theorem V3_v5 (c : Dev nD) (i : Fin 4096) (d : Fin 64) :
    V3 m ρ hO c main_v5 (ix2 i d) = V2 m ρ hO c main_v4_0 (ix3 i (0 : Fin 1) d) := by
  have e : (V3 m ρ hO c main_v5 : S4096x64.Idx → Elt F .f32)
      = shapeCast S4096x64 (V2 m ρ hO c main_v4_0) shapeCasts_S4096x1x64_S4096x64 := by
    show StableHlo.after hostOps1 (W2 m ρ hO c) (Proc.devRef .tc main_v5) = _
    after_results
    rfl
  rw [e]
  refine shapeCast_apply _ _ _ (ix3 i (0 : Fin 1) d) ?_
  rw [Shape.rowMajor_val_three, Shape.rowMajor_val_two]
  show (i.val * 1 + 0) * 64 + d.val = i.val * 64 + d.val
  omega

theorem V3_v6 (c : Dev nD) (i : Fin 4096) :
    V3 m ρ hO c main_v6 (ix2 i (0 : Fin 1)) = V2 m ρ hO c main_v4_1 (ix3 i (0 : Fin 1) (0 : Fin 1)) := by
  have e : (V3 m ρ hO c main_v6 : S4096x1.Idx → Elt F .f32)
      = shapeCast S4096x1 (V2 m ρ hO c main_v4_1) shapeCasts_S4096x1x1_S4096x1 := by
    show StableHlo.after hostOps1 (W2 m ρ hO c) (Proc.devRef .tc main_v6) = _
    after_results
    rfl
  rw [e]
  refine shapeCast_apply _ _ _ (ix3 i (0 : Fin 1) (0 : Fin 1)) ?_
  rw [Shape.rowMajor_val_three, Shape.rowMajor_val_two]
  show (i.val * 1 + 0) * 1 + 0 = i.val * 1 + 0
  omega

theorem V3_v7 (c : Dev nD) (i : Fin 4096) (d : Fin 64) :
    V3 m ρ hO c main_v7 (ix2 i d) = V2 m ρ hO c main_v4_2 (ix3 i (0 : Fin 1) d) := by
  have e : (V3 m ρ hO c main_v7 : S4096x64.Idx → Elt F .f32)
      = shapeCast S4096x64 (V2 m ρ hO c main_v4_2) shapeCasts_S4096x1x64_S4096x64 := by
    show StableHlo.after hostOps1 (W2 m ρ hO c) (Proc.devRef .tc main_v7) = _
    after_results
    rfl
  rw [e]
  refine shapeCast_apply _ _ _ (ix3 i (0 : Fin 1) d) ?_
  rw [Shape.rowMajor_val_three, Shape.rowMajor_val_two]
  show (i.val * 1 + 0) * 64 + d.val = i.val * 64 + d.val
  omega

theorem V3_v9 (c : Dev nD) (j : Fin 4096) :
    V3 m ρ hO c main_v9 (ix2 (0 : Fin 1) j) = V2 m ρ hO c main_v4_3 (ix3 j (0 : Fin 1) (0 : Fin 1)) := by
  have e : (V3 m ρ hO c main_v9 : S1x4096.Idx → Elt F .f32)
      = shapeCast S1x4096 (shapeCast S4096x1 (V2 m ρ hO c main_v4_3) shapeCasts_S4096x1x1_S4096x1) shapeCasts_S4096x1_S1x4096 := by
    show StableHlo.after hostOps1 (W2 m ρ hO c) (Proc.devRef .tc main_v9) = _
    after_results
    rfl
  rw [e]
  refine (shapeCast_apply _ _ _ (ix2 j (0 : Fin 1)) ?_).trans ?_
  · rw [Shape.rowMajor_val_two, Shape.rowMajor_val_two]
    show j.val * 1 + 0 = 0 * 4096 + j.val
    omega
  refine shapeCast_apply _ _ _ (ix3 j (0 : Fin 1) (0 : Fin 1)) ?_
  rw [Shape.rowMajor_val_three, Shape.rowMajor_val_two]
  show (j.val * 1 + 0) * 1 + 0 = j.val * 1 + 0
  omega

theorem V3_v10 (c : Dev nD) :
    V3 m ρ hO c main_v10 (ix2 (0 : Fin 1) (0 : Fin 1)) = m ((c : Thread nD τ).loc main_arg6) (ix1 (0 : Fin 1)) := by
  have e : (V3 m ρ hO c main_v10 : S1x1.Idx → Elt F .f32)
      = shapeCast S1x1 (W2 m ρ hO c (Proc.devRef .tc main_arg6)) shapeCasts_S1_S1x1 := by
    show StableHlo.after hostOps1 (W2 m ρ hO c) (Proc.devRef .tc main_v10) = _
    after_results
    rfl
  have e6 : W2 m ρ hO c (Proc.devRef .tc main_arg6) = m ((c : Thread nD τ).loc main_arg6) :=
    (W2_of_ne m ρ hO c main_arg6 (by decide)).trans
      (StableHlo.after_of_writes_sub hostOps0 _ hostOps0_writes (by decide : main_arg6 ∉ hostOps0_W))
  rw [e, e6]
  refine shapeCast_apply _ _ _ (ix1 (0 : Fin 1)) ?_
  rw [Shape.rowMajor_val_one, Shape.rowMajor_val_two]
  show (0 : ℕ) = 0 * 1 + 0
  omega

end Cert.KernelIdeal.Hand

end
-- ==== Proof.KI.KernelValue.lean ====
/-
  The idealized kernel's result, entry by entry, is the rating of the launch arguments: the product reads its operands
  where the second reshapes put the gather's outputs, the gather's outputs are the rows the ids name of the reshaped
  tables, and the reshaped tables are the tables.
-/
import proofs.«404068_j7576322310165_2_alg».proof.Proof.KI.ValGather
import proofs.«404068_j7576322310165_2_alg».proof.Proof.KI.ValMatmul
import proofs.«404068_j7576322310165_2_alg».proof.Proof.KI.ValHost
import proofs.«404068_j7576322310165_2_alg».proof.Proof.KI.Frame
import proofs.«404068_j7576322310165_2_alg».proof.Proof.Val.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Rating

variable (m : (ℓ : Loc nD τ sig) → Buf (Elt Ideal) ℓ) (ρ : Dev nD → PrngReg) (hO : Ok m ρ)

/-- The result array after the run, at its literal type. -/
abbrev resultA (c : Dev nD) : (⟨S4096x4096, .f32⟩ : BufTy).Contents (Elt Ideal) := W4 m ρ hO c (Proc.devRef .tc main_v11)

/-- Entry `(i, j)` of the kernel's result is the rating of the rows the tables name. -/
theorem result_at (hu : ∀ i : Fin 4096, (tbl m ρ 0 (ix1 i)).toNat < 1000000) (hv : ∀ i : Fin 4096, (tbl m ρ 1 (ix1 i)).toNat < 100000)
    (c : Dev nD) (i j : Fin 4096) :
    resultA m ρ hO c (ix2 i j)
      = ratingAt (rowOf 1000000 (tbl m ρ 0) hu) (rowOf 100000 (tbl m ρ 1) hv)
          (m ((c : Thread nD τ).loc main_arg2)) (m ((c : Thread nD τ).loc main_arg3))
          (m ((c : Thread nD τ).loc main_arg4)) (m ((c : Thread nD τ).loc main_arg5))
          (m ((c : Thread nD τ).loc main_arg6)) i j := by
  have h5 : ∀ k : Fin 64, lhsA (V3 m ρ hO) c (ix2 i k) = m ((c : Thread nD τ).loc main_arg2) (ix2 (rowOf 1000000 (tbl m ρ 0) hu i) k) := fun k =>
    (V3_v5 m ρ hO c i k).trans ((V2_v4_0 m ρ hO hu c i k).trans (V1_v0 m ρ c _ k))
  have h7 : ∀ k : Fin 64, rhsA (V3 m ρ hO) c (ix2 j k) = m ((c : Thread nD τ).loc main_arg3) (ix2 (rowOf 100000 (tbl m ρ 1) hv j) k) := fun k =>
    (V3_v7 m ρ hO c j k).trans ((V2_v4_2 m ρ hO hv c j k).trans (V1_v2 m ρ c _ k))
  have h6 : colA (V3 m ρ hO) c (ix2 i (0 : Fin 1)) = m ((c : Thread nD τ).loc main_arg4) (ix2 (rowOf 1000000 (tbl m ρ 0) hu i) (0 : Fin 1)) :=
    (V3_v6 m ρ hO c i).trans ((V2_v4_1 m ρ hO hu c i).trans (V1_v1 m ρ c _))
  have h9 : rowA (V3 m ρ hO) c (ix2 (0 : Fin 1) j) = m ((c : Thread nD τ).loc main_arg5) (ix2 (rowOf 100000 (tbl m ρ 1) hv j) (0 : Fin 1)) :=
    (V3_v9 m ρ hO c j).trans ((V2_v4_3 m ρ hO hv c j).trans (V1_v3 m ρ c _))
  have h10 : oneA (V3 m ρ hO) c (ix2 (0 : Fin 1) (0 : Fin 1)) = m ((c : Thread nD τ).loc main_arg6) (ix1 (0 : Fin 1)) :=
    V3_v10 m ρ hO c
  have hres : resultA m ρ hO c = outA (V3 m ρ hO) c := W4_result m ρ hO c
  rw [hres, product_at (V3 m ρ hO) c i j, h6, h9, h10]
  unfold ratingAt
  refine congrArg (fun s => ((s + _) + _) + _) ?_
  exact Finset.sum_congr rfl fun k _ => by rw [h5 k, h7 k]

end Cert.KernelIdeal.Hand

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.Ref.RefValue.lean ====
/-
  The reference read index by index. Under the index ranges the wrap of negative ids is the identity and each gather
  reads the row its id names, so entry (i, j) of the reference's result is the rating.
-/
import proofs.«404068_j7576322310165_2_alg».proof.Defs
import proofs.«404068_j7576322310165_2_alg».proof.Proof.Gen.ReferenceIdeal.Run
import proofs.«404068_j7576322310165_2_alg».proof.Proof.Gen.ReferenceIdeal.Read
import proofs.«404068_j7576322310165_2_alg».proof.Proof.Val.Spec
import proofs.«404068_j7576322310165_2_alg».proof.Proof.Pre.Ranges
import proofs.«404068_j7576322310165_2_alg».proof.Proof.LibRowGather
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.Rating

/-! ### The wrapped id columns

Each of the four id columns is `select (x < 0) (x + N) x` laid out as a column. In range the test is false, so the
column's entry `(r, 0)` is the id `x r` itself. -/

/-- The column an index `(r, 0)` of a `[4096, 1]` array comes from. -/
private theorem col_src (r : Fin 4096) :
    (fun a => match a with | ⟨0, _⟩ => ⟨((ix2 r (0 : Fin 1)) 0).val, ((ix2 r (0 : Fin 1)) 0).isLt⟩ : S4096.Idx) = ix1 r :=
  funext fun a => by
    match a with
    | ⟨0, _⟩ => rfl

private theorem v5_at (x0 : (⟨S4096, .i32⟩ : BufTy).Contents (Elt Ideal)) {n : Nat} (hu : InRange n x0) (r : Fin 4096) :
    val_main_v5 (F := Ideal) x0 (ix2 r (0 : Fin 1)) = x0 (ix1 r) := by
  have e : idx_main_v5 (ix2 r (0 : Fin 1)) = ix1 r := col_src r
  rw [val_main_v5_apply, e, val_main_v4_apply, val_main_v1_apply, val_main_v0_apply, val_main_c_apply, hu.not_neg r, select_zero]

private theorem v12_at (x0 : (⟨S4096, .i32⟩ : BufTy).Contents (Elt Ideal)) {n : Nat} (hu : InRange n x0) (r : Fin 4096) :
    val_main_v12 (F := Ideal) x0 (ix2 r (0 : Fin 1)) = x0 (ix1 r) := by
  have e : idx_main_v12 (ix2 r (0 : Fin 1)) = ix1 r := col_src r
  rw [val_main_v12_apply, e, val_main_v11_apply, val_main_v8_apply, val_main_v7_apply, val_main_c_1_apply, hu.not_neg r, select_zero]

private theorem v19_at (x1 : (⟨S4096, .i32⟩ : BufTy).Contents (Elt Ideal)) {n : Nat} (hv : InRange n x1) (r : Fin 4096) :
    val_main_v19 (F := Ideal) x1 (ix2 r (0 : Fin 1)) = x1 (ix1 r) := by
  have e : idx_main_v19 (ix2 r (0 : Fin 1)) = ix1 r := col_src r
  rw [val_main_v19_apply, e, val_main_v18_apply, val_main_v15_apply, val_main_v14_apply, val_main_c_3_apply, hv.not_neg r, select_zero]

private theorem v26_at (x1 : (⟨S4096, .i32⟩ : BufTy).Contents (Elt Ideal)) {n : Nat} (hv : InRange n x1) (r : Fin 4096) :
    val_main_v26 (F := Ideal) x1 (ix2 r (0 : Fin 1)) = x1 (ix1 r) := by
  have e : idx_main_v26 (ix2 r (0 : Fin 1)) = ix1 r := col_src r
  rw [val_main_v26_apply, e, val_main_v25_apply, val_main_v22_apply, val_main_v21_apply, val_main_c_5_apply, hv.not_neg r, select_zero]

/-! ### The clamped row

A gather reads row `min w.toInt.toNat (N - 1)` for the start word `w`. For a word in `[0, N)` that is `w.toNat`. -/

/-- The row a gather reads from a column whose entries are the in-range ids is the row the id names. -/
private theorem gatherRow_eq {N : Nat} (hN : 0 < N) (hN31 : N < 2 ^ 31) (ids : (⟨S4096, .i32⟩ : BufTy).Contents (Elt Ideal))
    (h : InRange N ids) (col : (⟨S4096x1, .i32⟩ : BufTy).Contents (Elt Ideal))
    (hcol : ∀ r : Fin 4096, col (ix2 r (0 : Fin 1)) = ids (ix1 r)) (r : Fin 4096) :
    gatherRow hN col r = rowOf N ids (h.toNat_lt hN31) r := by
  refine Fin.ext ?_
  show min (col (ix2 r (0 : Fin 1))).toInt.toNat (N - 1) = (ids (ix1 r)).toNat
  rw [hcol r, h.toInt_toNat r]
  have := h.toNat_lt hN31 r
  omega

/-! ### The four gathers -/

private theorem v6_at (x0 : (⟨S4096, .i32⟩ : BufTy).Contents (Elt Ideal)) (x2 : (⟨S1000000x64, .f32⟩ : BufTy).Contents (Elt Ideal))
    (hu : InRange 1000000 x0) (r : Fin 4096) (k : Fin 64) :
    val_main_v6 (F := Ideal) x0 x2 (ix2 r k) = x2 (ix2 (rowOf 1000000 x0 (hu.toNat_lt (by decide)) r) k) := by
  unfold val_main_v6
  refine (rowGather_apply (N := 1000000) (R := 4096) (C := 64) (by decide)
    Facts₀.gather_S1000000x64_S4096x1_S4096x64_1_0_n_n_0_1_164_wf x2 (val_main_v5 (F := Ideal) x0) r k).trans ?_
  rw [gatherRow_eq (by decide) (by decide) x0 hu _ (v5_at x0 hu) r]

private theorem v13_at (x0 : (⟨S4096, .i32⟩ : BufTy).Contents (Elt Ideal)) (x4 : (⟨S1000000x1, .f32⟩ : BufTy).Contents (Elt Ideal))
    (hu : InRange 1000000 x0) (r : Fin 4096) :
    val_main_v13 (F := Ideal) x0 x4 (ix2 r (0 : Fin 1)) = x4 (ix2 (rowOf 1000000 x0 (hu.toNat_lt (by decide)) r) (0 : Fin 1)) := by
  unfold val_main_v13
  refine (rowGather_apply (N := 1000000) (R := 4096) (C := 1) (by decide)
    Facts₀.gather_S1000000x1_S4096x1_S4096x1_1_0_n_n_0_1_11_wf x4 (val_main_v12 (F := Ideal) x0) r (0 : Fin 1)).trans ?_
  rw [gatherRow_eq (by decide) (by decide) x0 hu _ (v12_at x0 hu) r]

private theorem v20_at (x1 : (⟨S4096, .i32⟩ : BufTy).Contents (Elt Ideal)) (x3 : (⟨S100000x64, .f32⟩ : BufTy).Contents (Elt Ideal))
    (hv : InRange 100000 x1) (r : Fin 4096) (k : Fin 64) :
    val_main_v20 (F := Ideal) x1 x3 (ix2 r k) = x3 (ix2 (rowOf 100000 x1 (hv.toNat_lt (by decide)) r) k) := by
  unfold val_main_v20
  refine (rowGather_apply (N := 100000) (R := 4096) (C := 64) (by decide)
    Facts₀.gather_S100000x64_S4096x1_S4096x64_1_0_n_n_0_1_164_wf x3 (val_main_v19 (F := Ideal) x1) r k).trans ?_
  rw [gatherRow_eq (by decide) (by decide) x1 hv _ (v19_at x1 hv) r]

private theorem v27_at (x1 : (⟨S4096, .i32⟩ : BufTy).Contents (Elt Ideal)) (x5 : (⟨S100000x1, .f32⟩ : BufTy).Contents (Elt Ideal))
    (hv : InRange 100000 x1) (r : Fin 4096) :
    val_main_v27 (F := Ideal) x1 x5 (ix2 r (0 : Fin 1)) = x5 (ix2 (rowOf 100000 x1 (hv.toNat_lt (by decide)) r) (0 : Fin 1)) := by
  unfold val_main_v27
  refine (rowGather_apply (N := 100000) (R := 4096) (C := 1) (by decide)
    Facts₀.gather_S100000x1_S4096x1_S4096x1_1_0_n_n_0_1_11_wf x5 (val_main_v26 (F := Ideal) x1) r (0 : Fin 1)).trans ?_
  rw [gatherRow_eq (by decide) (by decide) x1 hv _ (v26_at x1 hv) r]

/-! ### The result -/

/-- Entry `(i, j)` of the reference's result is the rating of the rows the ids name. -/
theorem ref_at (x0 x1 : (⟨S4096, .i32⟩ : BufTy).Contents (Elt Ideal)) (x2 : (⟨S1000000x64, .f32⟩ : BufTy).Contents (Elt Ideal))
    (x3 : (⟨S100000x64, .f32⟩ : BufTy).Contents (Elt Ideal)) (x4 : (⟨S1000000x1, .f32⟩ : BufTy).Contents (Elt Ideal))
    (x5 : (⟨S100000x1, .f32⟩ : BufTy).Contents (Elt Ideal)) (x6 : (⟨S1, .f32⟩ : BufTy).Contents (Elt Ideal))
    (hu : InRange 1000000 x0) (hv : InRange 100000 x1) (i j : Fin 4096) :
    val_main_v36 (F := Ideal) x0 x1 x2 x3 x4 x5 x6 (ix2 i j)
      = ratingAt (rowOf 1000000 x0 (hu.toNat_lt (by decide))) (rowOf 100000 x1 (hv.toNat_lt (by decide))) x2 x3 x4 x5 x6 i j := by
  have el : ∀ k : Fin 64, lidx_main_v28 (ix2 i j) k = ix2 i k := fun k => funext fun a => by
    match a with
    | ⟨0, _⟩ => rfl
    | ⟨1, _⟩ => rfl
  have er : ∀ k : Fin 64, ridx_main_v28 (ix2 i j) k = ix2 j k := fun k => funext fun a => by
    match a with
    | ⟨0, _⟩ => rfl
    | ⟨1, _⟩ => rfl
  have e29 : idx_main_v29 (ix2 i j) = ix2 i (0 : Fin 1) := funext fun a => by
    match a with
    | ⟨0, _⟩ => rfl
    | ⟨1, _⟩ => rfl
  have e31 : idx_main_v31 (idx_main_v32 (ix2 i j)) = ix2 j (0 : Fin 1) := funext fun a => by
    match a with
    | ⟨0, _⟩ => rfl
    | ⟨1, _⟩ => rfl
  have e34 : idx_main_v34 (idx_main_v35 (ix2 i j)) = ix1 (0 : Fin 1) := funext fun a => by
    match a with
    | ⟨0, _⟩ => rfl
  rw [val_main_v36_apply, val_main_v33_apply, val_main_v30_apply, val_main_v28_apply, val_main_v29_apply, val_main_v32_apply,
    val_main_v31_apply, val_main_v35_apply, val_main_v34_apply, e29, e31, e34, v13_at x0 x4 hu i, v27_at x1 x5 hv j,
    Ideal.addf_def, Ideal.addf_def, Ideal.addf_def]
  unfold ratingAt
  congr 3
  refine Finset.sum_congr rfl fun k _ => ?_
  rw [el k, er k, v6_at x0 x2 hu i k, v20_at x1 x3 hv j k]

end Cert.ReferenceIdeal.RefValue

end
-- ==== Proof.lean ====
/-
  The certificate of a matrix-factorisation rating kernel against its jnp reference.

  Both programs compute, for a batch of 4096 user ids and 4096 item ids,

      rating[i, j] = (((Σ_k uw[uid[i], k] · iw[iid[j], k]) + ub[uid[i], 0]) + ib[iid[j], 0]) + b[0].

  The kernel gathers the named rows of the four tables with one pallas_call whose block indices are the ids themselves
  (read from prefetched index tables), and forms the [4096, 4096] product block by block with a second one, rounding
  the gathered weights to bf16 on the way into the matrix unit; over the extended reals that rounding is the identity, so
  the two programs are the same sum of the same terms in the same order and no algebraic law is needed.

  Every claim is stated under the precondition: the float inputs are finite and every id lies in its table's range.
  The range is what makes the kernel's table-indexed blocks lie inside their arrays; the frames of both kernel programs
  use it, and the value claim uses it again on the reference's side, where it turns the negative-index wrap and the
  gather's clamp into the identity.
-/
import proofs.«404068_j7576322310165_2_alg».proof.Defs
import proofs.«404068_j7576322310165_2_alg».proof.Proof.Gen.Kernel
import proofs.«404068_j7576322310165_2_alg».proof.Proof.Gen.KernelIdeal
import proofs.«404068_j7576322310165_2_alg».proof.Proof.Gen.ReferenceIdeal
import proofs.«404068_j7576322310165_2_alg».proof.Proof.Gen.Pre_finite_inputs
import proofs.«404068_j7576322310165_2_alg».proof.Proof.K.Frame
import proofs.«404068_j7576322310165_2_alg».proof.Proof.K.OkOfPre
import proofs.«404068_j7576322310165_2_alg».proof.Proof.KI.Frame
import proofs.«404068_j7576322310165_2_alg».proof.Proof.KI.OkOfPre
import proofs.«404068_j7576322310165_2_alg».proof.Proof.KI.KernelValue
import proofs.«404068_j7576322310165_2_alg».proof.Proof.Ref.RefValue
import proofs.«404068_j7576322310165_2_alg».proof.Proof.Pre.Ranges
import Idealize.ShloMosaic.Adequacy
import Idealize.ShloMosaic.Init

noncomputable section

namespace Cert.Proof

open Idealize.ShloMosaic Idealize.ShloMosaic.TcCoe Idealize.SL.Sem Idealize.ShloMosaic.ValueIdx
open Cert.Rating

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel's frame: the precondition bounds the ids, so every table-indexed block is inside its table. -/
theorem frame_K : Cert.frame_Kernel := fun m ρ hpre => by
  obtain ⟨hu, hv⟩ := inRange_of_pre _ _ _ _ _ _ _ (hpre 0)
  exact Cert.Kernel.Hand.frame m ρ (Cert.Kernel.Hand.ok_of_inRange m ρ hu hv)

/-- The idealized kernel's frame, the same way. -/
theorem frame_KI : Cert.frame_KernelIdeal := fun m ρ hpre => by
  obtain ⟨hu, hv⟩ := inRange_of_pre _ _ _ _ _ _ _ (hpre 0)
  exact Cert.KernelIdeal.Hand.frame m ρ (Cert.KernelIdeal.Hand.ok_of_inRange m ρ hu hv)

/-- The reference has no kernel: its frame is its run with the result dropped. -/
theorem frame_R : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- A row named through equal index vectors is the same row. -/
theorem rowOf_congr {n : Nat} {ids ids' : (⟨1, ![4096]⟩ : Shape).Idx → BitVec 32} (e : ids = ids')
    (h : ∀ i : Fin 4096, (ids (ix1 i)).toNat < n) (h' : ∀ i : Fin 4096, (ids' (ix1 i)).toNat < n) :
    rowOf n ids h = rowOf n ids' h' := by
  subst e; rfl

/-- Over the extended reals both programs end at the rating of the arguments, entry by entry. -/
theorem algebraic : Cert.algebraic_KernelIdeal_ReferenceIdeal := by
  intro m ρ m' ρ' hpre hagree
  obtain ⟨hu, hv⟩ := inRange_of_pre _ _ _ _ _ _ _ (hpre 0)
  have hO := Cert.KernelIdeal.Hand.ok_of_inRange m ρ hu hv
  refine ⟨fun c => Cert.KernelIdeal.Hand.W4 m ρ hO c (Proc.devRef .tc Cert.KernelIdeal.main_v11),
    Cert.KernelIdeal.Hand.run_result m ρ hO, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v36_eq, (hagree 0).1, (hagree 0).2.1, (hagree 0).2.2.1, (hagree 0).2.2.2.1,
    (hagree 0).2.2.2.2.1, (hagree 0).2.2.2.2.2.1, (hagree 0).2.2.2.2.2.2]
  funext y
  obtain ⟨i, j, rfl⟩ : ∃ (i j : Fin 4096), y = ix2 i j := ⟨y 0, y 1, eq_ix2 y⟩
  refine (Cert.ReferenceIdeal.RefValue.ref_at _ _ _ _ _ _ _ hu hv i j).trans ?_
  refine Eq.trans ?_ (Cert.KernelIdeal.Hand.result_at m ρ hO (Cert.KernelIdeal.Hand.tbl_lt_0 m ρ hu)
    (Cert.KernelIdeal.Hand.tbl_lt_1 m ρ hv) 0 i j).symm
  rw [rowOf_congr (Cert.KernelIdeal.Hand.tbl_0 m ρ).symm (hu.toNat_lt (by decide)) (Cert.KernelIdeal.Hand.tbl_lt_0 m ρ hu),
    rowOf_congr (Cert.KernelIdeal.Hand.tbl_1 m ρ).symm (hv.toNat_lt (by decide)) (Cert.KernelIdeal.Hand.tbl_lt_1 m ρ hv)]

theorem claim : Cert.Claim :=
  ⟨Cert.Kernel.Gen.facts, Cert.KernelIdeal.Gen.facts, Cert.ReferenceIdeal.Gen.facts, Cert.Pre_finite_inputs.Gen.facts,
    frame_K, frame_KI, frame_R, preserves, algebraic⟩

end Cert.Proof

end
